-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S2048x3072 : Shape := ⟨2, ![2048, 3072]⟩
abbrev S2048 : Shape := ⟨1, ![2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048x3072 : S_.BroadcastsInDim S2048x3072 (![] : Fin 0 → Fin S2048x3072.rank)
  reducesTo_S2048x3072_S_d0_1 : S2048x3072.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x3072 .f32) (main_arg8 : FVec F S2048 .f32) (main_arg9 : FVec F S2048x3072 .f32) (main_arg10 : FVec F S2048 .f32) (main_v33 : IVec S_ 1) : IVec S_ 1 :=
  let main_v34 : FVec F S2048x3072 .f32 := Host.absf main_arg7
  let main_cst_12 : FVec F S_ .f32 := constant S_ .f32 0x7F800000#32
  let main_v35 : FVec F S2048x3072 .f32 := broadcastInDim S2048x3072 ![] bcast_S_S2048x3072 main_cst_12
  let main_v36 : IVec S2048x3072 1 := cmpf .olt main_v34 main_v35
  let main_c_13 : IVec S_ 1 := constantI S_ 1 1#1
  let main_v37 : IVec S_ 1 := (fun x v => Host.reduce IntOp.andi x v reducesTo_S2048x3072_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x3072 .f32 := Host.absf main_arg9
  let main_cst_16 : FVec F S_ .f32 := constant S_ .f32 0x7F800000#32
  let main_v45 : FVec F S2048x3072 .f32 := broadcastInDim S2048x3072 ![] bcast_S_S2048x3072 main_cst_16
  let main_v46 : IVec S2048x3072 1 := cmpf .olt main_v44 main_v45
  let main_c_17 : IVec S_ 1 := constantI S_ 1 1#1
  let main_v47 : IVec S_ 1 := (fun x v => Host.reduce IntOp.andi x v reducesTo_S2048x3072_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x3072 .f32) (main_arg6 : FVec F S2048 .f32) (main_arg7 : FVec F S2048x3072 .f32) (main_arg8 : FVec F S2048 .f32) (main_arg9 : FVec F S2048x3072 .f32) (main_arg10 : FVec F S2048 .f32) (main_v13 : IVec S_ 1) (main_v16 : IVec S2048x3072 1) : IVec S_ 1 :=
  let main_c_5 : IVec S_ 1 := constantI S_ 1 1#1
  let main_v17 : IVec S_ 1 := (fun x v => Host.reduce IntOp.andi x v reducesTo_S2048x3072_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x3072 .f32 := Host.absf main_arg5
  let main_cst_8 : FVec F S_ .f32 := constant S_ .f32 0x7F800000#32
  let main_v25 : FVec F S2048x3072 .f32 := broadcastInDim S2048x3072 ![] bcast_S_S2048x3072 main_cst_8
  let main_v26 : IVec S2048x3072 1 := cmpf .olt main_v24 main_v25
  let main_c_9 : IVec S_ 1 := constantI S_ 1 1#1
  let main_v27 : IVec S_ 1 := (fun x v => Host.reduce IntOp.andi x v reducesTo_S2048x3072_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x2048 .f32) (main_arg2 : FVec F S4096x2048 .f32) (main_arg3 : FVec F S2048x3072 .f32) (main_arg4 : FVec F S2048 .f32) (main_arg5 : FVec F S2048x3072 .f32) (main_arg6 : FVec F S2048 .f32) (main_arg7 : FVec F S2048x3072 .f32) (main_arg8 : FVec F S2048 .f32) (main_arg9 : FVec F S2048x3072 .f32) (main_arg10 : FVec F S2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x3072 .f32 := Host.absf main_arg3
  let main_cst_4 : FVec F S_ .f32 := constant S_ .f32 0x7F800000#32
  let main_v15 : FVec F S2048x3072 .f32 := broadcastInDim S2048x3072 ![] bcast_S_S2048x3072 main_cst_4
  let main_v16 : IVec S2048x3072 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S4096x2048 : Shape := ⟨2, ![4096, 2048]⟩
abbrev S2048x3072 : Shape := ⟨2, ![2048, 3072]⟩
abbrev S2048 : Shape := ⟨1, ![2048]⟩
abbrev S4096x3072 : Shape := ⟨2, ![4096, 3072]⟩
abbrev S1x2048 : Shape := ⟨2, ![1, 2048]⟩
abbrev S512x1024 : Shape := ⟨2, ![512, 1024]⟩
abbrev S256x1024 : Shape := ⟨2, ![256, 1024]⟩
abbrev S1x256 : Shape := ⟨2, ![1, 256]⟩
abbrev S512x256 : Shape := ⟨2, ![512, 256]⟩
abbrev S1024x256 : Shape := ⟨2, ![1024, 256]⟩

abbrev nBuf : Space → Nat
  | .hbm => 18
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S2048x3072, .f32⟩
  | .hbm, ⟨4, _⟩ => ⟨S2048, .f32⟩
  | .hbm, ⟨5, _⟩ => ⟨S2048x3072, .f32⟩
  | .hbm, ⟨6, _⟩ => ⟨S2048, .f32⟩
  | .hbm, ⟨7, _⟩ => ⟨S2048x3072, .f32⟩
  | .hbm, ⟨8, _⟩ => ⟨S2048, .f32⟩
  | .hbm, ⟨9, _⟩ => ⟨S2048x3072, .f32⟩
  | .hbm, ⟨10, _⟩ => ⟨S2048, .f32⟩
  | .hbm, ⟨11, _⟩ => ⟨S4096x3072, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S4096x2048, .f32⟩
  | .hbm, ⟨17, _⟩ => ⟨S4096x2048, .f32⟩
  | .local _ .vmem, ⟨0, _⟩ => ⟨S512x1024, .f32⟩
  | .local _ .vmem, ⟨1, _⟩ => ⟨S512x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S512x256, .f32⟩
  | .local _ .vmem, ⟨27, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![8, 8, 3], ![false, false, false]⟩

def k0_cond2 (i : grid0.Coords) : BitVec 1 :=
  let arg2 : BitVec 32 := BitVec.ofNat 32 (i 2).val
  let c2_i32 : BitVec 32 := 2#32
  let v42 : BitVec 1 := Scalar.cmpi .eq arg2 c2_i32
  let v43 : BitVec 32 := Scalar.extui v42
  let c0_i32_29 : BitVec 32 := 0#32
  let v44 : BitVec 1 := Scalar.cmpi .ne v43 c0_i32_29
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

class Facts₀ : Prop where
  concatenates_S4096x1024_S4096x2048_S4096x3072_d1 : Shape.Concatenates [S4096x1024, S4096x2048] S4096x3072 1
  shapeCasts_S2048_S1x2048 : S2048.ShapeCasts S1x2048
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  transposes_S256x1024_p1_0_S1024x256 : S256x1024.Transposes [1, 0] S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x3072.size a
  hwx0_0 : ∀ i : grid0.Coords, EltTy.bits .f32 = 32 ∨ (Rect.block (s := S4096x3072) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S2048x3072.size a
  hwx0_1 : ∀ i : grid0.Coords, EltTy.bits .f32 = 32 ∨ (Rect.block (s := S2048x3072) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S2048x3072.size a
  hwx0_2 : ∀ i : grid0.Coords, EltTy.bits .f32 = 32 ∨ (Rect.block (s := S2048x3072) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S2048x3072.size a
  hwx0_3 : ∀ i : grid0.Coords, EltTy.bits .f32 = 32 ∨ (Rect.block (s := S2048x3072) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S2048x3072.size a
  hwx0_4 : ∀ i : grid0.Coords, EltTy.bits .f32 = 32 ∨ (Rect.block (s := S2048x3072) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x2048.size a
  hwx0_7 : ∀ i : grid0.Coords, EltTy.bits .f32 = 32 ∨ (Rect.block (s := S1x2048) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x2048.size a
  hwx0_8 : ∀ i : grid0.Coords, EltTy.bits .f32 = 32 ∨ (Rect.block (s := S1x2048) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S4096x2048.size a
  hwx0_9 : ∀ i : grid0.Coords, EltTy.bits .f32 = 32 ∨ (Rect.block (s := S4096x2048) S512x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S4096x2048.size a
  hwx0_10 : ∀ i : grid0.Coords, EltTy.bits .f32 = 32 ∨ (Rect.block (s := S4096x2048) S512x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x256.size a ≤ S4096x2048.size a
  hwx0_11 : ∀ i : grid0.Coords, EltTy.bits .f32 = 32 ∨ (Rect.block (s := S4096x2048) S512x256.size (cc0_transform_11 i) (hinb0_11 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S512x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_0) S512x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_1) S512x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096x2048 : Shape := ⟨2, ![4096, 2048]⟩
abbrev S2048x3072 : Shape := ⟨2, ![2048, 3072]⟩
abbrev S2048 : Shape := ⟨1, ![2048]⟩
abbrev S4096x3072 : Shape := ⟨2, ![4096, 3072]⟩
abbrev S8192x3072 : Shape := ⟨2, ![8192, 3072]⟩
abbrev S8192 : Shape := ⟨1, ![8192]⟩
abbrev S3072x8192 : Shape := ⟨2, ![3072, 8192]⟩
abbrev S4096x8192 : Shape := ⟨2, ![4096, 8192]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S2048x3072, .f32⟩
  | .hbm, ⟨4, _⟩ => ⟨S2048, .f32⟩
  | .hbm, ⟨5, _⟩ => ⟨S2048x3072, .f32⟩
  | .hbm, ⟨6, _⟩ => ⟨S2048, .f32⟩
  | .hbm, ⟨7, _⟩ => ⟨S2048x3072, .f32⟩
  | .hbm, ⟨8, _⟩ => ⟨S2048, .f32⟩
  | .hbm, ⟨9, _⟩ => ⟨S2048x3072, .f32⟩
  | .hbm, ⟨10, _⟩ => ⟨S2048, .f32⟩
  | .hbm, ⟨11, _⟩ => ⟨S4096x3072, .f32⟩
  | .hbm, ⟨12, _⟩ => ⟨S8192x3072, .f32⟩
  | .hbm, ⟨13, _⟩ => ⟨S8192, .f32⟩
  | .hbm, ⟨14, _⟩ => ⟨S3072x8192, .f32⟩
  | .hbm, ⟨15, _⟩ => ⟨S4096x8192, .f32⟩
  | .hbm, ⟨16, _⟩ => ⟨S1x8192, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S4096x1024_S4096x2048_S4096x3072_d1 : Shape.Concatenates [S4096x1024, S4096x2048] S4096x3072 1
  concatenates_S2048x3072_S2048x3072_S2048x3072_S2048x3072_S8192x3072_d0 : Shape.Concatenates [S2048x3072, S2048x3072, S2048x3072, S2048x3072] S8192x3072 0
  concatenates_S2048_S2048_S2048_S2048_S8192_d0 : Shape.Concatenates [S2048, S2048, S2048, S2048] S8192 0
  transposes_S8192x3072_S3072x8192_1_0 : S8192x3072.Transposes [1, 0] S3072x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x3072_S3072x8192_S4096x8192_1_0_0_1_n_n_wf : DotDims.WF S4096x3072 S3072x8192 S4096x8192 [1] [0] [0] [1] [] []

variable [Facts₀]

def dot_S4096x3072_S3072x8192_S4096x8192_1_0_0_1_n_n : DotDims S4096x3072 S3072x8192 S4096x8192 where
  lhsContracting := [1]
  rhsContracting := [0]
  lhsNonContracting := [0]
  rhsNonContracting := [1]
  lhsBatch := []
  rhsBatch := []
  wf := dot_S4096x3072_S3072x8192_S4096x8192_1_0_0_1_n_n_wf

class Facts : Prop extends Facts₀ where

variable [Facts]
-- ==== Proof.Pieces.lean ====
/-
   What one run of the kernel body leaves behind, in each of its three cases, as plain terms of what it loaded.

   At the first point of an accumulation (case A) each of the four accumulators is stored as zero, read back, and
   stored again as zero plus this point's product; at a middle point (case B) it is what the point before left plus
   this point's product; at the last point (case C) likewise, and the two results are then computed from the four
   fresh accumulators, the four bias rows and the previous cell state's block. Each statement is generic in the
   float family: only which stored value a later load reads is used, never the arithmetic. -/
import proofs.«112202_j18210661335500_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

section
variable (c : Dev nD) (i : grid0.Coords) (arg3 : Memref sig .tc .vmem S512x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S512x256 .f32) (harg12 : arg12.IsWhole) (arg13 : Memref sig .tc .vmem S512x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S512x256 .f32) (harg17 : arg17.IsWhole) (arg18 : Memref sig .tc .vmem S512x256 .f32) (harg18 : arg18.IsWhole)
variable (x0 : Vec F S512x1024 .f32) (x1 x2 x3 x4 : Vec F S256x1024 .f32) (x5 x6 x7 x8 : Vec F S1x256 .f32) (x9 : Vec F S512x256 .f32)

/-! ## Case A: the first point of an accumulation -/

/-- The input gate's accumulator after a first point: zero plus the point's product. -/
theorem soutA_0 (hc0 : cond0_0 i) (hc1 : ¬cond0_1 i) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 = k0_pay11 x0 x1 (k0_pay5 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  sl_unfold_words
  rw [View.canon_cons_unit_zero (S := S512x256) hz, View.readCov_unit_zero (S := S512x256) _ hz]
  simp only [View.readAt_eq_ld, View.readCov_unit_zero (S := S512x256) _ hz, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S512x1024) hz, View.ld_unit_zero (S := S256x1024) hz, View.ld_unit_zero (S := S512x256) hz, View.ld_unit_zero (S := S1x256) hz]

/-- The forget gate's accumulator after a first point: zero plus the point's product. -/
theorem soutA_1 (hc0 : cond0_0 i) (hc1 : ¬cond0_1 i) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 = k0_pay12 x0 x2 (k0_pay6 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  sl_unfold_words
  rw [View.canon_cons_unit_zero (S := S512x256) hz, View.readCov_unit_zero (S := S512x256) _ hz]
  simp only [View.readAt_eq_ld, View.readCov_unit_zero (S := S512x256) _ hz, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S512x1024) hz, View.ld_unit_zero (S := S256x1024) hz, View.ld_unit_zero (S := S512x256) hz, View.ld_unit_zero (S := S1x256) hz]

/-- The candidate gate's accumulator after a first point: zero plus the point's product. -/
theorem soutA_2 (hc0 : cond0_0 i) (hc1 : ¬cond0_1 i) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 = k0_pay1 (k0_pay9 x0) (k0_pay7 (F := F)) (k0_pay13 x3) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  sl_unfold_words
  rw [View.canon_cons_unit_zero (S := S512x256) hz, View.readCov_unit_zero (S := S512x256) _ hz]
  simp only [View.readAt_eq_ld, View.readCov_unit_zero (S := S512x256) _ hz, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S512x1024) hz, View.ld_unit_zero (S := S256x1024) hz, View.ld_unit_zero (S := S512x256) hz, View.ld_unit_zero (S := S1x256) hz]

/-- The output gate's accumulator after a first point: zero plus the point's product. -/
theorem soutA_3 (hc0 : cond0_0 i) (hc1 : ¬cond0_1 i) :
    sout0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 = k0_pay2 (k0_pay9 x0) (k0_pay10 x4) (k0_pay8 (F := F)) := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  sl_unfold_words
  rw [View.canon_cons_unit_zero (S := S512x256) hz, View.readCov_unit_zero (S := S512x256) _ hz]
  simp only [View.readAt_eq_ld, View.readCov_unit_zero (S := S512x256) _ hz, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S512x1024) hz, View.ld_unit_zero (S := S256x1024) hz, View.ld_unit_zero (S := S512x256) hz, View.ld_unit_zero (S := S1x256) hz]

/-! ## Case B: a middle point -/

/-- The input gate's accumulator after a middle point: what the point before left plus the point's product. -/
theorem soutB_0 (hc0 : ¬cond0_0 i) (hc1 : ¬cond0_1 i) (xs0 xs1 xs2 xs3 : Vec F S512x256 .f32) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay11 x0 x1 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  sl_unfold_words
  rw [View.canon_unit_zero hz]
  simp only [View.readAt_eq_ld, View.readCov_unit_zero (S := S512x256) _ hz, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S512x1024) hz, View.ld_unit_zero (S := S256x1024) hz, View.ld_unit_zero (S := S512x256) hz, View.ld_unit_zero (S := S1x256) hz]

/-- The forget gate's accumulator after a middle point: what the point before left plus the point's product. -/
theorem soutB_1 (hc0 : ¬cond0_0 i) (hc1 : ¬cond0_1 i) (xs0 xs1 xs2 xs3 : Vec F S512x256 .f32) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay12 x0 x2 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  sl_unfold_words
  rw [View.canon_unit_zero hz]
  simp only [View.readAt_eq_ld, View.readCov_unit_zero (S := S512x256) _ hz, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S512x1024) hz, View.ld_unit_zero (S := S256x1024) hz, View.ld_unit_zero (S := S512x256) hz, View.ld_unit_zero (S := S1x256) hz]

/-- The candidate gate's accumulator after a middle point: what the point before left plus the point's product. -/
theorem soutB_2 (hc0 : ¬cond0_0 i) (hc1 : ¬cond0_1 i) (xs0 xs1 xs2 xs3 : Vec F S512x256 .f32) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay1 (k0_pay9 x0) xs2 (k0_pay13 x3) := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  sl_unfold_words
  rw [View.canon_unit_zero hz]
  simp only [View.readAt_eq_ld, View.readCov_unit_zero (S := S512x256) _ hz, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S512x1024) hz, View.ld_unit_zero (S := S256x1024) hz, View.ld_unit_zero (S := S512x256) hz, View.ld_unit_zero (S := S1x256) hz]

/-- The output gate's accumulator after a middle point: what the point before left plus the point's product. -/
theorem soutB_3 (hc0 : ¬cond0_0 i) (hc1 : ¬cond0_1 i) (xs0 xs1 xs2 xs3 : Vec F S512x256 .f32) :
    sout0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay2 (k0_pay9 x0) (k0_pay10 x4) xs3 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  sl_unfold_words
  rw [View.canon_unit_zero hz]
  simp only [View.readAt_eq_ld, View.readCov_unit_zero (S := S512x256) _ hz, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S512x1024) hz, View.ld_unit_zero (S := S256x1024) hz, View.ld_unit_zero (S := S512x256) hz, View.ld_unit_zero (S := S1x256) hz]

/-! ## Case C: the last point -/

/-- The input gate's accumulator after a last point. -/
theorem soutC_0 (hc0 : ¬cond0_0 i) (hc1 : cond0_1 i) (xs0 xs1 xs2 xs3 : Vec F S512x256 .f32) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay11 x0 x1 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  rw [View.canon_unit_zero hz]
  simp only [View.readAt_eq_ld, View.readCov_unit_zero (S := S512x256) _ hz, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S512x1024) hz, View.ld_unit_zero (S := S256x1024) hz, View.ld_unit_zero (S := S512x256) hz, View.ld_unit_zero (S := S1x256) hz]

/-- The forget gate's accumulator after a last point. -/
theorem soutC_1 (hc0 : ¬cond0_0 i) (hc1 : cond0_1 i) (xs0 xs1 xs2 xs3 : Vec F S512x256 .f32) :
    sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay12 x0 x2 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  rw [View.canon_unit_zero hz]
  simp only [View.readAt_eq_ld, View.readCov_unit_zero (S := S512x256) _ hz, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S512x1024) hz, View.ld_unit_zero (S := S256x1024) hz, View.ld_unit_zero (S := S512x256) hz, View.ld_unit_zero (S := S1x256) hz]

/-- The candidate gate's accumulator after a last point. -/
theorem soutC_2 (hc0 : ¬cond0_0 i) (hc1 : cond0_1 i) (xs0 xs1 xs2 xs3 : Vec F S512x256 .f32) :
    sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay1 (k0_pay9 x0) xs2 (k0_pay13 x3) := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  rw [View.canon_unit_zero hz]
  simp only [View.readAt_eq_ld, View.readCov_unit_zero (S := S512x256) _ hz, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S512x1024) hz, View.ld_unit_zero (S := S256x1024) hz, View.ld_unit_zero (S := S512x256) hz, View.ld_unit_zero (S := S1x256) hz]

/-- The output gate's accumulator after a last point. -/
theorem soutC_3 (hc0 : ¬cond0_0 i) (hc1 : cond0_1 i) (xs0 xs1 xs2 xs3 : Vec F S512x256 .f32) :
    sout0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay2 (k0_pay9 x0) (k0_pay10 x4) xs3 := by
  unfold sout0_C_3
  rw [View.read_writes_eq_canon _ _ _ (scover0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  rw [View.canon_unit_zero hz]
  simp only [View.readAt_eq_ld, View.readCov_unit_zero (S := S512x256) _ hz, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S512x1024) hz, View.ld_unit_zero (S := S256x1024) hz, View.ld_unit_zero (S := S512x256) hz, View.ld_unit_zero (S := S1x256) hz]

/-- The hidden-state block a last point stores: from the fresh accumulators, the bias rows and the previous cell
    state's block. -/
theorem outC_10 (hc0 : ¬cond0_0 i) (hc1 : cond0_1 i) (xs0 xs1 xs2 xs3 : Vec F S512x256 .f32) :
    out0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3
      = k0_pay4 (k0_pay11 x0 x1 xs0) x5 (k0_pay12 x0 x2 xs1) x6 (k0_pay1 (k0_pay9 x0) xs2 (k0_pay13 x3)) x7 (k0_pay2 (k0_pay9 x0) (k0_pay10 x4) xs3) x8 x9 := by
  unfold out0_C_10
  rw [View.read_writes_eq_canon _ _ _ (cover0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  rw [View.canon_unit_zero hz]
  simp only [View.readAt_eq_ld, View.readCov_unit_zero (S := S512x256) _ hz, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S512x1024) hz, View.ld_unit_zero (S := S256x1024) hz, View.ld_unit_zero (S := S512x256) hz, View.ld_unit_zero (S := S1x256) hz]

/-- The cell-state block a last point stores: from the fresh accumulators, the bias rows and the previous cell
    state's block. -/
theorem outC_11 (hc0 : ¬cond0_0 i) (hc1 : cond0_1 i) (xs0 xs1 xs2 xs3 : Vec F S512x256 .f32) :
    out0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3
      = k0_pay3 (k0_pay11 x0 x1 xs0) x5 (k0_pay12 x0 x2 xs1) x6 (k0_pay1 (k0_pay9 x0) xs2 (k0_pay13 x3)) x7 x9 := by
  unfold out0_C_11
  rw [View.read_writes_eq_canon _ _ _ (cover0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  rw [View.canon_unit_zero hz]
  simp only [View.readAt_eq_ld, View.readCov_unit_zero (S := S512x256) _ hz, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S512x1024) hz, View.ld_unit_zero (S := S256x1024) hz, View.ld_unit_zero (S := S512x256) hz, View.ld_unit_zero (S := S1x256) hz]

end

end Cert.KernelIdeal.Pieces

end
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.LibBlockedSum.lean ====
/- A sum over a range of naturals cut into consecutive blocks of equal length: summing block by block, each block
   over its places, is summing over the whole range. Stated for a function of the naturals with values in a
   commutative additive monoid, so that the blocks' terms are named by arithmetic on positions alone. -/
import Mathlib.Algebra.BigOperators.Fin
import Mathlib.Algebra.BigOperators.Intervals

open scoped BigOperators

namespace Cert.BlockedSum

variable {M : Type*} [AddCommMonoid M]

/-- Over ranges: the sum over `nb` blocks of the sum over the `bs` places of block `s`, which are the positions
    `bs * s + r`, is the sum over the first `nb * bs` positions. By induction on the number of blocks: the last
    block is the tail of the longer range. -/
theorem sum_range_blocks (f : ℕ → M) (bs : ℕ) : ∀ nb : ℕ,
    ∑ s ∈ Finset.range nb, ∑ r ∈ Finset.range bs, f (bs * s + r) = ∑ k ∈ Finset.range (nb * bs), f k
  | 0 => by simp
  | nb + 1 => by
    rw [Finset.sum_range_succ, sum_range_blocks f bs nb, Nat.succ_mul, Finset.sum_range_add, Nat.mul_comm bs nb]

/-- The same with the places of a block and the positions of the whole range as bounded naturals. -/
theorem sum_blocks_fin (f : ℕ → M) (nb bs : ℕ) :
    ∑ s ∈ Finset.range nb, ∑ r : Fin bs, f (bs * s + r.val) = ∑ k : Fin (nb * bs), f k.val := by
  rw [Fin.sum_univ_eq_sum_range f (nb * bs), ← sum_range_blocks f bs nb]
  exact Finset.sum_congr rfl fun s _ => Fin.sum_univ_eq_sum_range (fun r => f (bs * s + r)) bs

end Cert.BlockedSum
-- ==== Proof.BlockMath.lean ====
/- The arithmetic of one accumulation step and of the whole accumulation, over the extended reals.

   One step adds to an accumulator the product of a block A (m x k) with the transpose of a block B (n x k): at entry
   (a, b) it adds the inner product of row a of A with row b of B. Three such steps over the three consecutive column
   bands of width 1024, started from zero, add up the inner product over all 3072 columns: sums over the extended
   reals are commutative and associative, so cutting a sum into consecutive bands changes nothing. -/
import Idealize.ShloMosaic.Lib.ValueIdx
import Idealize.ShloMosaic.Lib.ValueLayout
import Idealize.ShloMosaic.Lib.Pipeline.Value
import Idealize.ShloMosaic.PureOps.Ideal.Laws
import proofs.«112202_j18210661335500_1_alg».proof.Proof.LibDotRead
import proofs.«112202_j18210661335500_1_alg».proof.Proof.LibBlockedSum

noncomputable section

open scoped BigOperators

namespace Cert.BlockMath

open Idealize.ShloMosaic Idealize.ShloMosaic.ValueIdx

/-- The product of A (m x k) with the transpose of B (n x k), into the zero accumulator, read at (a, b): the inner
    product of row a of A with row b of B. -/
theorem matmulT_apply {m k n : Nat}
    (w : DotDims.WF ⟨2, ![m, k]⟩ ⟨2, ![k, n]⟩ ⟨2, ![m, n]⟩ [1] [0] [0] [1] [] [])
    (ht : (⟨2, ![n, k]⟩ : Shape).Transposes [1, 0] ⟨2, ![k, n]⟩)
    (A : (⟨2, ![m, k]⟩ : Shape).Idx → EReal) (B : (⟨2, ![n, k]⟩ : Shape).Idx → EReal) (a : Fin m) (b : Fin n) :
    (matmul (F := Ideal) (φ₁ := .bf16) (φ₂ := .bf16) (⟨[1], [0], [0], [1], [], [], w⟩ : DotDims ⟨2, ![m, k]⟩ ⟨2, ![k, n]⟩ ⟨2, ![m, n]⟩) none A
        (transpose ⟨2, ![k, n]⟩ [1, 0] B ht) (constant (F := Ideal) ⟨2, ![m, n]⟩ .f32 0x00000000#32)) (ix2 a b)
      = ∑ c : Fin k, A (ix2 a c) * B (ix2 b c) := by
  refine (Ideal.matmul_constant_zero_apply _ none A (transpose ⟨2, ![k, n]⟩ [1, 0] B ht) (ix2 a b)).trans ?_
  refine (Cert.DotRead.sum_contr_plain w A (transpose ⟨2, ![k, n]⟩ [1, 0] B ht) a b).trans ?_
  exact Finset.sum_congr rfl fun c _ => congrArg (A (ix2 a c) * ·) (transpose_ix2_apply B ht c b)

/-- A function on the 3072 columns, continued by zero past them, so that bands are named by arithmetic on positions. -/
def ext (f : Fin 3072 → EReal) : ℕ → EReal := fun n => if h : n < 3072 then f ⟨n, h⟩ else 0

theorem ext_val (f : Fin 3072 → EReal) (k : Fin 3072) : ext f k.val = f k := by
  unfold ext; rw [dif_pos k.isLt]

/-- The sum over band s (columns 1024 s + c, c < 1024) of a function on the 3072 columns. -/
def band (f : Fin 3072 → EReal) (s : ℕ) : EReal := ∑ c : Fin 1024, ext f (1024 * s + c.val)

/-- Zero plus the three bands' sums is the sum over all 3072 columns. -/
theorem three_bands (f : Fin 3072 → EReal) :
    (0 : EReal) + ∑ s ∈ Finset.range 3, band f s = ∑ k : Fin 3072, f k := by
  rw [zero_add]
  refine (Cert.BlockedSum.sum_blocks_fin (ext f) 3 1024).trans ?_
  show ∑ k : Fin 3072, ext f k.val = _
  exact Finset.sum_congr rfl fun k _ => ext_val f k

end Cert.BlockMath

end
-- ==== Proof.CellSpec.lean ====
/- One step of a long short-term memory cell, entry by entry, over the extended reals.

   The step takes the row-wise joined input X = [x | h] (4096 rows of 3072 entries), four weight matrices and four
   bias vectors (one pair per gate: input, forget, candidate, output), and the previous cell state c. A gate's
   pre-activation at row r and hidden unit q is the inner product of row r of X with row q of the gate's weights,
   plus the gate's bias at q. The new cell state is  sigma(f) * c + sigma(i) * tanh(g),  the new hidden state is
   sigma(o) * tanh(new cell state),  where sigma is the logistic function 1 / (1 + e^(-z)). -/
import Idealize.ShloMosaic.Lib.ValueIdx
import Idealize.ShloMosaic.PureOps.Ideal

noncomputable section

open scoped BigOperators

namespace Cert.CellSpec

open Idealize.ShloMosaic Idealize.ShloMosaic.ValueIdx

/-- A gate's pre-activation: the inner product of row `r` of the joined input with row `q` of the gate's weight
    matrix, plus the gate's bias at `q`. -/
def gate (X : (⟨2, ![4096, 3072]⟩ : Shape).Idx → EReal) (W : (⟨2, ![2048, 3072]⟩ : Shape).Idx → EReal)
    (b : (⟨1, ![2048]⟩ : Shape).Idx → EReal) (r : Fin 4096) (q : Fin 2048) : EReal :=
  (∑ k : Fin 3072, X (ix2 r k) * W (ix2 q k)) + b (ix1 q)

/-- The new cell state at row `r`, unit `q`, from the forget, input and candidate pre-activations `zf`, `zi`, `zc`
    and the previous cell state's entry. -/
def cellOf (zf zi zc cprev : EReal) : EReal :=
  Ideal.logistic zf * cprev + Ideal.logistic zi * Ideal.tanh zc

/-- The new hidden state's entry from the output pre-activation and the new cell state's entry. -/
def hiddenOf (zo cnew : EReal) : EReal :=
  Ideal.logistic zo * Ideal.tanh cnew

/-- The new cell state, as a whole array. -/
def cell (X : (⟨2, ![4096, 3072]⟩ : Shape).Idx → EReal)
    (Wi : (⟨2, ![2048, 3072]⟩ : Shape).Idx → EReal) (bi : (⟨1, ![2048]⟩ : Shape).Idx → EReal)
    (Wf : (⟨2, ![2048, 3072]⟩ : Shape).Idx → EReal) (bf : (⟨1, ![2048]⟩ : Shape).Idx → EReal)
    (Wc : (⟨2, ![2048, 3072]⟩ : Shape).Idx → EReal) (bc : (⟨1, ![2048]⟩ : Shape).Idx → EReal)
    (cprev : (⟨2, ![4096, 2048]⟩ : Shape).Idx → EReal) : (⟨2, ![4096, 2048]⟩ : Shape).Idx → EReal :=
  fun i => cellOf (gate X Wf bf (i 0) (i 1)) (gate X Wi bi (i 0) (i 1)) (gate X Wc bc (i 0) (i 1)) (cprev i)

/-- The new hidden state, as a whole array. -/
def hidden (X : (⟨2, ![4096, 3072]⟩ : Shape).Idx → EReal)
    (Wi : (⟨2, ![2048, 3072]⟩ : Shape).Idx → EReal) (bi : (⟨1, ![2048]⟩ : Shape).Idx → EReal)
    (Wf : (⟨2, ![2048, 3072]⟩ : Shape).Idx → EReal) (bf : (⟨1, ![2048]⟩ : Shape).Idx → EReal)
    (Wc : (⟨2, ![2048, 3072]⟩ : Shape).Idx → EReal) (bc : (⟨1, ![2048]⟩ : Shape).Idx → EReal)
    (Wo : (⟨2, ![2048, 3072]⟩ : Shape).Idx → EReal) (bo : (⟨1, ![2048]⟩ : Shape).Idx → EReal)
    (cprev : (⟨2, ![4096, 2048]⟩ : Shape).Idx → EReal) : (⟨2, ![4096, 2048]⟩ : Shape).Idx → EReal :=
  fun i => hiddenOf (gate X Wo bo (i 0) (i 1)) (cell X Wi bi Wf bf Wc bc cprev i)

end Cert.CellSpec

end
-- ==== Proof.Payloads.lean ====
/- The kernel body's stored values, read at an entry, over the extended reals.

   An accumulator update at entry (p, q) adds the inner product of row p of the input block with row q of the
   weight block (the change to the narrower float format is the identity here, and the weight block enters
   transposed). The zero block is zero. The cell-state block at (p, q) is the cell of CellSpec at the three
   pre-activations "accumulator + bias" (the bias row read at column q, whatever the row), and the hidden-state
   block is the hidden state of CellSpec at the fourth. -/
import proofs.«112202_j18210661335500_1_alg».proof.Proof.Gen.KernelIdeal.Skeleton
import proofs.«112202_j18210661335500_1_alg».proof.Proof.BlockMath
import proofs.«112202_j18210661335500_1_alg».proof.Proof.CellSpec
import Idealize.ShloMosaic.Lib.ValueIdx
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-- The inner product of row p of an input block with row q of a weight block. -/
def blockDot (x : Vec Ideal S512x1024 .f32) (w : Vec Ideal S256x1024 .f32) (p : Fin 512) (q : Fin 256) : EReal :=
  ∑ k : Fin 1024, x (ix2 p k) * w (ix2 q k)

/-- The product against the transposed weight block, into the zero accumulator, at (p, q). -/
theorem mm_apply (x : Vec Ideal S512x1024 .f32) (w : Vec Ideal S256x1024 .f32) (p : Fin 512) (q : Fin 256) :
    (matmul (F := Ideal) dot_S512x1024_S1024x256_S512x256_1_0_0_1_n_n none (truncf (F := Ideal) .bf16 x bitsLt_bf16_f32)
        (transpose S1024x256 [1, 0] (truncf (F := Ideal) .bf16 w bitsLt_bf16_f32) transposes_S256x1024_p1_0_S1024x256)
        (constant (F := Ideal) S512x256 .f32 0x00000000#32)) (ix2 p q) = blockDot x w p q := by
  have h := Cert.BlockMath.matmulT_apply (m := 512) (k := 1024) (n := 256) dot_S512x1024_S1024x256_S512x256_1_0_0_1_n_n_wf
    transposes_S256x1024_p1_0_S1024x256 (truncf (F := Ideal) .bf16 x bitsLt_bf16_f32) (truncf (F := Ideal) .bf16 w bitsLt_bf16_f32) p q
  exact h

theorem pay11_apply (x0 : Vec Ideal S512x1024 .f32) (x1 : Vec Ideal S256x1024 .f32) (acc : Vec Ideal S512x256 .f32)
    (p : Fin 512) (q : Fin 256) : k0_pay11 x0 x1 acc (ix2 p q) = acc (ix2 p q) + blockDot x0 x1 p q := by
  unfold k0_pay11 k0_pay9
  simp only [shapeCast_self]
  exact congrArg (acc (ix2 p q) + ·) (mm_apply x0 x1 p q)

theorem pay12_apply (x0 : Vec Ideal S512x1024 .f32) (x2 : Vec Ideal S256x1024 .f32) (acc : Vec Ideal S512x256 .f32)
    (p : Fin 512) (q : Fin 256) : k0_pay12 x0 x2 acc (ix2 p q) = acc (ix2 p q) + blockDot x0 x2 p q := by
  unfold k0_pay12 k0_pay9
  simp only [shapeCast_self]
  exact congrArg (acc (ix2 p q) + ·) (mm_apply x0 x2 p q)

theorem pay1_apply (x0 : Vec Ideal S512x1024 .f32) (x3 : Vec Ideal S256x1024 .f32) (acc : Vec Ideal S512x256 .f32)
    (p : Fin 512) (q : Fin 256) :
    k0_pay1 (k0_pay9 x0) acc (k0_pay13 x3) (ix2 p q) = acc (ix2 p q) + blockDot x0 x3 p q := by
  unfold k0_pay1 k0_pay9 k0_pay13
  simp only [shapeCast_self]
  exact congrArg (acc (ix2 p q) + ·) (mm_apply x0 x3 p q)

theorem pay2_apply (x0 : Vec Ideal S512x1024 .f32) (x4 : Vec Ideal S256x1024 .f32) (acc : Vec Ideal S512x256 .f32)
    (p : Fin 512) (q : Fin 256) :
    k0_pay2 (k0_pay9 x0) (k0_pay10 x4) acc (ix2 p q) = acc (ix2 p q) + blockDot x0 x4 p q := by
  unfold k0_pay2 k0_pay9 k0_pay10
  simp only [shapeCast_self]
  exact congrArg (acc (ix2 p q) + ·) (mm_apply x0 x4 p q)

/-- The zero blocks. -/
theorem pay5_apply (y : S512x256.Idx) : k0_pay5 (F := Ideal) y = 0 := by
  unfold k0_pay5; simp only [shapeCast_self]; exact Ideal.ofBits_zero_f32
theorem pay6_apply (y : S512x256.Idx) : k0_pay6 (F := Ideal) y = 0 := by
  unfold k0_pay6; simp only [shapeCast_self]; exact Ideal.ofBits_zero_f32
theorem pay7_apply (y : S512x256.Idx) : k0_pay7 (F := Ideal) y = 0 := by
  unfold k0_pay7; simp only [shapeCast_self]; exact Ideal.ofBits_zero_f32
theorem pay8_apply (y : S512x256.Idx) : k0_pay8 (F := Ideal) y = 0 := by
  unfold k0_pay8; simp only [shapeCast_self]; exact Ideal.ofBits_zero_f32

/-- A bias row laid down the 512 rows reads, at (p, q), the row at column q. -/
theorem biasRows_apply (b : Vec Ideal S1x256 .f32) (p : Fin 512) (q : Fin 256) :
    broadcastTo S512x256 b broadcasts_S1x256_S512x256 (ix2 p q) = b (ix2 (0 : Fin 1) q) :=
  broadcastTo_apply b broadcasts_S1x256_S512x256 (ix2 p q) (ix2 (0 : Fin 1) q) (fun ax => match ax with
    | ⟨0, _⟩ => rfl
    | ⟨1, _⟩ => rfl)

/-- The cell-state block at (p, q). -/
theorem pay3_apply (s0 : Vec Ideal S512x256 .f32) (b0 : Vec Ideal S1x256 .f32) (s1 : Vec Ideal S512x256 .f32)
    (b1 : Vec Ideal S1x256 .f32) (s2 : Vec Ideal S512x256 .f32) (b2 : Vec Ideal S1x256 .f32)
    (cp : Vec Ideal S512x256 .f32) (p : Fin 512) (q : Fin 256) :
    k0_pay3 s0 b0 s1 b1 s2 b2 cp (ix2 p q)
      = Cert.CellSpec.cellOf (s1 (ix2 p q) + b1 (ix2 (0 : Fin 1) q)) (s0 (ix2 p q) + b0 (ix2 (0 : Fin 1) q))
          (s2 (ix2 p q) + b2 (ix2 (0 : Fin 1) q)) (cp (ix2 p q)) := by
  unfold k0_pay3 Cert.CellSpec.cellOf
  simp only [shapeCast_self]
  rw [← biasRows_apply b0 p q, ← biasRows_apply b1 p q, ← biasRows_apply b2 p q]
  rfl

/-- The hidden-state block at (p, q). -/
theorem pay4_apply (s0 : Vec Ideal S512x256 .f32) (b0 : Vec Ideal S1x256 .f32) (s1 : Vec Ideal S512x256 .f32)
    (b1 : Vec Ideal S1x256 .f32) (s2 : Vec Ideal S512x256 .f32) (b2 : Vec Ideal S1x256 .f32)
    (s3 : Vec Ideal S512x256 .f32) (b3 : Vec Ideal S1x256 .f32)
    (cp : Vec Ideal S512x256 .f32) (p : Fin 512) (q : Fin 256) :
    k0_pay4 s0 b0 s1 b1 s2 b2 s3 b3 cp (ix2 p q)
      = Cert.CellSpec.hiddenOf (s3 (ix2 p q) + b3 (ix2 (0 : Fin 1) q))
          (Cert.CellSpec.cellOf (s1 (ix2 p q) + b1 (ix2 (0 : Fin 1) q)) (s0 (ix2 p q) + b0 (ix2 (0 : Fin 1) q))
            (s2 (ix2 p q) + b2 (ix2 (0 : Fin 1) q)) (cp (ix2 p q))) := by
  rw [← pay3_apply s0 b0 s1 b1 s2 b2 cp p q]
  unfold k0_pay4 Cert.CellSpec.hiddenOf
  simp only [shapeCast_self]
  rw [← biasRows_apply b3 p q]
  rfl

end Cert.KernelIdeal.Payloads

end
-- ==== Proof.BlockReads.lean ====
/- Where each window's block sits in its array. Grid point t of the 8 x 8 x 3 grid has coordinates
   (t / 24, t / 3 % 8, t % 3): a row band of 512 rows, a band of 256 hidden units, a band of 1024 input columns.
   The joined input's block at t is rows 512 (t / 24) + p, columns 1024 (t % 3) + k; a weight matrix's block is rows
   256 (t / 3 % 8) + q, the same columns; a bias row's block is entries 256 (t / 3 % 8) + q of the bias vector (laid
   out as one row); the previous cell state's block, and each result's, is rows 512 (t / 24) + p, columns
   256 (t / 3 % 8) + q. The result blocks written back at the points t % 3 = 2 tile the result arrays. -/
import proofs.«112202_j18210661335500_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.BlockReads

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The input blocks at a point, each at its literal shape. -/
abbrev blkX (c : Dev nD) (t : Fin cfg0.N) : Vec F S512x1024 .f32 := iblk m c 0 t
abbrev blkWi (c : Dev nD) (t : Fin cfg0.N) : Vec F S256x1024 .f32 := iblk m c 1 t
abbrev blkWf (c : Dev nD) (t : Fin cfg0.N) : Vec F S256x1024 .f32 := iblk m c 2 t
abbrev blkWc (c : Dev nD) (t : Fin cfg0.N) : Vec F S256x1024 .f32 := iblk m c 3 t
abbrev blkWo (c : Dev nD) (t : Fin cfg0.N) : Vec F S256x1024 .f32 := iblk m c 4 t
abbrev blkBi (c : Dev nD) (t : Fin cfg0.N) : Vec F S1x256 .f32 := iblk m c 5 t
abbrev blkBf (c : Dev nD) (t : Fin cfg0.N) : Vec F S1x256 .f32 := iblk m c 6 t
abbrev blkBc (c : Dev nD) (t : Fin cfg0.N) : Vec F S1x256 .f32 := iblk m c 7 t
abbrev blkBo (c : Dev nD) (t : Fin cfg0.N) : Vec F S1x256 .f32 := iblk m c 8 t
abbrev blkC (c : Dev nD) (t : Fin cfg0.N) : Vec F S512x256 .f32 := iblk m c 9 t

/-- The joined input [x | h] as the region finds it. -/
abbrev joined (c : Dev nD) : Vec F S4096x3072 .f32 := V m c main_v0

/-- It is the host's concatenation of the two arguments along the columns. -/
theorem joined_eq (c : Dev nD) :
    joined m c = concatenate S4096x3072 1 [⟨S4096x1024, m ((c : Thread nD τ).loc main_arg0)⟩, ⟨S4096x2048, m ((c : Thread nD τ).loc main_arg1)⟩] concatenates_S4096x1024_S4096x2048_S4096x3072_d1 := by
  have e : (V m c main_v0 : S4096x3072.Idx → Elt F .f32) = concatenate S4096x3072 1 [⟨S4096x1024, m ((c : Thread nD τ).loc main_arg0)⟩, ⟨S4096x2048, m ((c : Thread nD τ).loc main_arg1)⟩] concatenates_S4096x1024_S4096x2048_S4096x3072_d1 := by
    dsimp only [Gen.V, Gen.hostOps0]; after_results
  exact e

/-! ## The index maps over the grid

Each window's block index at point t, per axis, as a function of t: decided once over the 192 points. A block's
coordinate in its array is always (block index) * (block extent) + (the coordinate inside the block). -/

theorem idx_facts0 : ∀ t : Fin cfg0.N, win0_0.index t (0 : Fin 2) = t.val / 24 ∧ win0_0.index t (1 : Fin 2) = t.val % 3 :=
  (by decide +kernel : ∀ t : Fin grid0.N, _)
theorem idx_facts1 : ∀ t : Fin cfg0.N, win0_1.index t (0 : Fin 2) = t.val / 3 % 8 ∧ win0_1.index t (1 : Fin 2) = t.val % 3 :=
  (by decide +kernel : ∀ t : Fin grid0.N, _)
theorem idx_facts2 : ∀ t : Fin cfg0.N, win0_2.index t (0 : Fin 2) = t.val / 3 % 8 ∧ win0_2.index t (1 : Fin 2) = t.val % 3 :=
  (by decide +kernel : ∀ t : Fin grid0.N, _)
theorem idx_facts3 : ∀ t : Fin cfg0.N, win0_3.index t (0 : Fin 2) = t.val / 3 % 8 ∧ win0_3.index t (1 : Fin 2) = t.val % 3 :=
  (by decide +kernel : ∀ t : Fin grid0.N, _)
theorem idx_facts4 : ∀ t : Fin cfg0.N, win0_4.index t (0 : Fin 2) = t.val / 3 % 8 ∧ win0_4.index t (1 : Fin 2) = t.val % 3 :=
  (by decide +kernel : ∀ t : Fin grid0.N, _)
theorem idx_facts5 : ∀ t : Fin cfg0.N, win0_5.index t (0 : Fin 2) = 0 ∧ win0_5.index t (1 : Fin 2) = t.val / 3 % 8 :=
  (by decide +kernel : ∀ t : Fin grid0.N, _)
theorem idx_facts6 : ∀ t : Fin cfg0.N, win0_6.index t (0 : Fin 2) = 0 ∧ win0_6.index t (1 : Fin 2) = t.val / 3 % 8 :=
  (by decide +kernel : ∀ t : Fin grid0.N, _)
theorem idx_facts7 : ∀ t : Fin cfg0.N, win0_7.index t (0 : Fin 2) = 0 ∧ win0_7.index t (1 : Fin 2) = t.val / 3 % 8 :=
  (by decide +kernel : ∀ t : Fin grid0.N, _)
theorem idx_facts8 : ∀ t : Fin cfg0.N, win0_8.index t (0 : Fin 2) = 0 ∧ win0_8.index t (1 : Fin 2) = t.val / 3 % 8 :=
  (by decide +kernel : ∀ t : Fin grid0.N, _)
theorem idx_facts9 : ∀ t : Fin cfg0.N, win0_9.index t (0 : Fin 2) = t.val / 24 ∧ win0_9.index t (1 : Fin 2) = t.val / 3 % 8 :=
  (by decide +kernel : ∀ t : Fin grid0.N, _)
theorem idx_facts10 : ∀ t : Fin cfg0.N, win0_10.index t (0 : Fin 2) = t.val / 24 ∧ win0_10.index t (1 : Fin 2) = t.val / 3 % 8 :=
  (by decide +kernel : ∀ t : Fin grid0.N, _)
theorem idx_facts11 : ∀ t : Fin cfg0.N, win0_11.index t (0 : Fin 2) = t.val / 24 ∧ win0_11.index t (1 : Fin 2) = t.val / 3 % 8 :=
  (by decide +kernel : ∀ t : Fin grid0.N, _)

/-! ## The input blocks -/

/-- The joined input's block at t: rows 512 (t / 24) + p, columns 1024 (t % 3) + k. -/
theorem blkX_apply (c : Dev nD) (t : Fin cfg0.N) (p : Fin 512) (k : Fin 1024) (r : Fin 4096) (j : Fin 3072)
    (hr : r.val = 512 * (t.val / 24) + p.val) (hj : j.val = 1024 * (t.val % 3) + k.val) :
    blkX m c t (ix2 p k) = joined m c (ix2 r j) := by
  obtain ⟨e0, e1⟩ := idx_facts0 t
  unfold blkX joined iblk
  rw [View.read_apply]
  show V m c main_v0 _ = V m c main_v0 _
  congr 1
  funext a
  apply Fin.ext
  match a with
  | ⟨0, _⟩ => show win0_0.index t (0 : Fin 2) * 512 + 1 * p.val = r.val; omega
  | ⟨1, _⟩ => show win0_0.index t (1 : Fin 2) * 1024 + 1 * k.val = j.val; omega

/-! A weight matrix reaches the region as launched; its block at t is rows 256 (t / 3 % 8) + q, columns 1024 (t % 3) + k. -/

theorem blkWi_apply (c : Dev nD) (t : Fin cfg0.N) (q : Fin 256) (k : Fin 1024) (u : Fin 2048) (j : Fin 3072)
    (hu : u.val = 256 * (t.val / 3 % 8) + q.val) (hj : j.val = 1024 * (t.val % 3) + k.val) :
    blkWi m c t (ix2 q k) = m ((c : Thread nD τ).loc main_arg3) (ix2 u j) := by
  obtain ⟨e0, e1⟩ := idx_facts1 t
  unfold blkWi iblk
  rw [View.read_apply]
  show V m c main_arg3 _ = _
  rw [V_main_arg3]
  congr 1
  funext a
  apply Fin.ext
  match a with
  | ⟨0, _⟩ => show win0_1.index t (0 : Fin 2) * 256 + 1 * q.val = u.val; omega
  | ⟨1, _⟩ => show win0_1.index t (1 : Fin 2) * 1024 + 1 * k.val = j.val; omega

theorem blkWf_apply (c : Dev nD) (t : Fin cfg0.N) (q : Fin 256) (k : Fin 1024) (u : Fin 2048) (j : Fin 3072)
    (hu : u.val = 256 * (t.val / 3 % 8) + q.val) (hj : j.val = 1024 * (t.val % 3) + k.val) :
    blkWf m c t (ix2 q k) = m ((c : Thread nD τ).loc main_arg5) (ix2 u j) := by
  obtain ⟨e0, e1⟩ := idx_facts2 t
  unfold blkWf iblk
  rw [View.read_apply]
  show V m c main_arg5 _ = _
  rw [V_main_arg5]
  congr 1
  funext a
  apply Fin.ext
  match a with
  | ⟨0, _⟩ => show win0_2.index t (0 : Fin 2) * 256 + 1 * q.val = u.val; omega
  | ⟨1, _⟩ => show win0_2.index t (1 : Fin 2) * 1024 + 1 * k.val = j.val; omega

theorem blkWc_apply (c : Dev nD) (t : Fin cfg0.N) (q : Fin 256) (k : Fin 1024) (u : Fin 2048) (j : Fin 3072)
    (hu : u.val = 256 * (t.val / 3 % 8) + q.val) (hj : j.val = 1024 * (t.val % 3) + k.val) :
    blkWc m c t (ix2 q k) = m ((c : Thread nD τ).loc main_arg7) (ix2 u j) := by
  obtain ⟨e0, e1⟩ := idx_facts3 t
  unfold blkWc iblk
  rw [View.read_apply]
  show V m c main_arg7 _ = _
  rw [V_main_arg7]
  congr 1
  funext a
  apply Fin.ext
  match a with
  | ⟨0, _⟩ => show win0_3.index t (0 : Fin 2) * 256 + 1 * q.val = u.val; omega
  | ⟨1, _⟩ => show win0_3.index t (1 : Fin 2) * 1024 + 1 * k.val = j.val; omega

theorem blkWo_apply (c : Dev nD) (t : Fin cfg0.N) (q : Fin 256) (k : Fin 1024) (u : Fin 2048) (j : Fin 3072)
    (hu : u.val = 256 * (t.val / 3 % 8) + q.val) (hj : j.val = 1024 * (t.val % 3) + k.val) :
    blkWo m c t (ix2 q k) = m ((c : Thread nD τ).loc main_arg9) (ix2 u j) := by
  obtain ⟨e0, e1⟩ := idx_facts4 t
  unfold blkWo iblk
  rw [View.read_apply]
  show V m c main_arg9 _ = _
  rw [V_main_arg9]
  congr 1
  funext a
  apply Fin.ext
  match a with
  | ⟨0, _⟩ => show win0_4.index t (0 : Fin 2) * 256 + 1 * q.val = u.val; omega
  | ⟨1, _⟩ => show win0_4.index t (1 : Fin 2) * 1024 + 1 * k.val = j.val; omega

/-! A bias row as the region finds it is the bias vector laid out as one row: entry (0, u) of the row is entry u of
the vector, the two having the same row-major position. -/

theorem V_main_v1 (c : Dev nD) :
    (V m c main_v1 : S1x2048.Idx → Elt F .f32) = shapeCast S1x2048 (m ((c : Thread nD τ).loc main_arg4)) shapeCasts_S2048_S1x2048 := by
  dsimp only [Gen.V, Gen.hostOps0]; after_results; rfl
theorem V_main_v2 (c : Dev nD) :
    (V m c main_v2 : S1x2048.Idx → Elt F .f32) = shapeCast S1x2048 (m ((c : Thread nD τ).loc main_arg6)) shapeCasts_S2048_S1x2048 := by
  dsimp only [Gen.V, Gen.hostOps0]; after_results; rfl
theorem V_main_v3 (c : Dev nD) :
    (V m c main_v3 : S1x2048.Idx → Elt F .f32) = shapeCast S1x2048 (m ((c : Thread nD τ).loc main_arg8)) shapeCasts_S2048_S1x2048 := by
  dsimp only [Gen.V, Gen.hostOps0]; after_results; rfl
theorem V_main_v4 (c : Dev nD) :
    (V m c main_v4 : S1x2048.Idx → Elt F .f32) = shapeCast S1x2048 (m ((c : Thread nD τ).loc main_arg10)) shapeCasts_S2048_S1x2048 := by
  dsimp only [Gen.V, Gen.hostOps0]; after_results; rfl

theorem blkBi_apply (c : Dev nD) (t : Fin cfg0.N) (q : Fin 256) (u : Fin 2048) (hu : u.val = 256 * (t.val / 3 % 8) + q.val) :
    blkBi m c t (ix2 (0 : Fin 1) q) = m ((c : Thread nD τ).loc main_arg4) (ix1 u) := by
  obtain ⟨e0, e1⟩ := idx_facts5 t
  unfold blkBi iblk
  rw [View.read_apply]
  show V m c main_v1 _ = _
  have hx : ((cfg0.win 5).blk t).view.emb (ix2 (0 : Fin 1) q) = (ix2 (0 : Fin 1) u : S1x2048.Idx) := by
    funext a
    apply Fin.ext
    match a with
    | ⟨0, _⟩ => show win0_5.index t (0 : Fin 2) * 1 + 1 * (0 : Fin 1).val = (0 : Fin 1).val; omega
    | ⟨1, _⟩ => show win0_5.index t (1 : Fin 2) * 256 + 1 * q.val = u.val; omega
  rw [hx, V_main_v1]
  refine shapeCast_apply _ _ _ (ix1 u) ?_
  rw [Shape.rowMajor_val_two, Shape.rowMajor_val_one]
  show u.val = (0 : Fin 1).val * 2048 + u.val
  simp

theorem blkBf_apply (c : Dev nD) (t : Fin cfg0.N) (q : Fin 256) (u : Fin 2048) (hu : u.val = 256 * (t.val / 3 % 8) + q.val) :
    blkBf m c t (ix2 (0 : Fin 1) q) = m ((c : Thread nD τ).loc main_arg6) (ix1 u) := by
  obtain ⟨e0, e1⟩ := idx_facts6 t
  unfold blkBf iblk
  rw [View.read_apply]
  show V m c main_v2 _ = _
  have hx : ((cfg0.win 6).blk t).view.emb (ix2 (0 : Fin 1) q) = (ix2 (0 : Fin 1) u : S1x2048.Idx) := by
    funext a
    apply Fin.ext
    match a with
    | ⟨0, _⟩ => show win0_6.index t (0 : Fin 2) * 1 + 1 * (0 : Fin 1).val = (0 : Fin 1).val; omega
    | ⟨1, _⟩ => show win0_6.index t (1 : Fin 2) * 256 + 1 * q.val = u.val; omega
  rw [hx, V_main_v2]
  refine shapeCast_apply _ _ _ (ix1 u) ?_
  rw [Shape.rowMajor_val_two, Shape.rowMajor_val_one]
  show u.val = (0 : Fin 1).val * 2048 + u.val
  simp

theorem blkBc_apply (c : Dev nD) (t : Fin cfg0.N) (q : Fin 256) (u : Fin 2048) (hu : u.val = 256 * (t.val / 3 % 8) + q.val) :
    blkBc m c t (ix2 (0 : Fin 1) q) = m ((c : Thread nD τ).loc main_arg8) (ix1 u) := by
  obtain ⟨e0, e1⟩ := idx_facts7 t
  unfold blkBc iblk
  rw [View.read_apply]
  show V m c main_v3 _ = _
  have hx : ((cfg0.win 7).blk t).view.emb (ix2 (0 : Fin 1) q) = (ix2 (0 : Fin 1) u : S1x2048.Idx) := by
    funext a
    apply Fin.ext
    match a with
    | ⟨0, _⟩ => show win0_7.index t (0 : Fin 2) * 1 + 1 * (0 : Fin 1).val = (0 : Fin 1).val; omega
    | ⟨1, _⟩ => show win0_7.index t (1 : Fin 2) * 256 + 1 * q.val = u.val; omega
  rw [hx, V_main_v3]
  refine shapeCast_apply _ _ _ (ix1 u) ?_
  rw [Shape.rowMajor_val_two, Shape.rowMajor_val_one]
  show u.val = (0 : Fin 1).val * 2048 + u.val
  simp

theorem blkBo_apply (c : Dev nD) (t : Fin cfg0.N) (q : Fin 256) (u : Fin 2048) (hu : u.val = 256 * (t.val / 3 % 8) + q.val) :
    blkBo m c t (ix2 (0 : Fin 1) q) = m ((c : Thread nD τ).loc main_arg10) (ix1 u) := by
  obtain ⟨e0, e1⟩ := idx_facts8 t
  unfold blkBo iblk
  rw [View.read_apply]
  show V m c main_v4 _ = _
  have hx : ((cfg0.win 8).blk t).view.emb (ix2 (0 : Fin 1) q) = (ix2 (0 : Fin 1) u : S1x2048.Idx) := by
    funext a
    apply Fin.ext
    match a with
    | ⟨0, _⟩ => show win0_8.index t (0 : Fin 2) * 1 + 1 * (0 : Fin 1).val = (0 : Fin 1).val; omega
    | ⟨1, _⟩ => show win0_8.index t (1 : Fin 2) * 256 + 1 * q.val = u.val; omega
  rw [hx, V_main_v4]
  refine shapeCast_apply _ _ _ (ix1 u) ?_
  rw [Shape.rowMajor_val_two, Shape.rowMajor_val_one]
  show u.val = (0 : Fin 1).val * 2048 + u.val
  simp

/-- The previous cell state reaches the region as launched; its block at t is rows 512 (t / 24) + p, columns 256 (t / 3 % 8) + q. -/
theorem blkC_apply (c : Dev nD) (t : Fin cfg0.N) (p : Fin 512) (q : Fin 256) (r : Fin 4096) (u : Fin 2048)
    (hr : r.val = 512 * (t.val / 24) + p.val) (hu : u.val = 256 * (t.val / 3 % 8) + q.val) :
    blkC m c t (ix2 p q) = m ((c : Thread nD τ).loc main_arg2) (ix2 r u) := by
  obtain ⟨e0, e1⟩ := idx_facts9 t
  unfold blkC iblk
  rw [View.read_apply]
  show V m c main_arg2 _ = _
  rw [V_main_arg2]
  congr 1
  funext a
  apply Fin.ext
  match a with
  | ⟨0, _⟩ => show win0_9.index t (0 : Fin 2) * 512 + 1 * p.val = r.val; omega
  | ⟨1, _⟩ => show win0_9.index t (1 : Fin 2) * 256 + 1 * q.val = u.val; omega

/-! ## The result blocks -/

/-- A whole-array function read through result window 10's block at t is the function at the block's rows and columns. -/
theorem read_out10 (c : Dev nD) (t : Fin cfg0.N) (G : Buf (Elt F) ((cfg0.win 10).arr.view.loc (c.tc : Thread nD τ)))
    (p : Fin 512) (q : Fin 256) (r : Fin 4096) (u : Fin 2048)
    (hr : r.val = 512 * (t.val / 24) + p.val) (hu : u.val = 256 * (t.val / 3 % 8) + q.val) :
    ((cfg0.win 10).blk t).view.read (Elt F) G (ix2 p q) = G (ix2 r u) := by
  obtain ⟨e0, e1⟩ := idx_facts10 t
  rw [View.read_apply]
  show G _ = G _
  congr 1
  funext a
  apply Fin.ext
  match a with
  | ⟨0, _⟩ => show win0_10.index t (0 : Fin 2) * 512 + 1 * p.val = r.val; omega
  | ⟨1, _⟩ => show win0_10.index t (1 : Fin 2) * 256 + 1 * q.val = u.val; omega

theorem read_out11 (c : Dev nD) (t : Fin cfg0.N) (G : Buf (Elt F) ((cfg0.win 11).arr.view.loc (c.tc : Thread nD τ)))
    (p : Fin 512) (q : Fin 256) (r : Fin 4096) (u : Fin 2048)
    (hr : r.val = 512 * (t.val / 24) + p.val) (hu : u.val = 256 * (t.val / 3 % 8) + q.val) :
    ((cfg0.win 11).blk t).view.read (Elt F) G (ix2 p q) = G (ix2 r u) := by
  obtain ⟨e0, e1⟩ := idx_facts11 t
  rw [View.read_apply]
  show G _ = G _
  congr 1
  funext a
  apply Fin.ext
  match a with
  | ⟨0, _⟩ => show win0_11.index t (0 : Fin 2) * 512 + 1 * p.val = r.val; omega
  | ⟨1, _⟩ => show win0_11.index t (1 : Fin 2) * 256 + 1 * q.val = u.val; omega

/-- An entry of result array 10 is in point t's block iff each coordinate is in the block's range on its axis. -/
theorem mem_blk10 (t : Fin cfg0.N) (i : S4096x2048.Idx) :
    i ∈ ((cfg0.win 10).blk t).view.set ↔ ∀ a : Fin 2, win0_10.index t a * S512x256.size a ≤ (i a).val ∧ (i a).val < win0_10.index t a * S512x256.size a + S512x256.size a := by
  show i ∈ ((View.whole main_v5_0).slice (win0_10.rect t)).set ↔ _
  rw [View.set_slice_whole, Rect.mem_set_unit]
  exact Iff.rfl

/-- An entry of result array 11 is in point t's block iff each coordinate is in the block's range on its axis. -/
theorem mem_blk11 (t : Fin cfg0.N) (i : S4096x2048.Idx) :
    i ∈ ((cfg0.win 11).blk t).view.set ↔ ∀ a : Fin 2, win0_11.index t a * S512x256.size a ≤ (i a).val ∧ (i a).val < win0_11.index t a * S512x256.size a + S512x256.size a := by
  show i ∈ ((View.whole main_v5_1).slice (win0_11.rect t)).set ↔ _
  rw [View.set_slice_whole, Rect.mem_set_unit]
  exact Iff.rfl

/-! Entry (r, u) lies in the block of the point with coordinates (r / 512, u / 256, 2), which is point
24 (r / 512) + 3 (u / 256) + 2 of the grid, and that point writes back (its last coordinate is 2). -/

/-- Every entry of result array 10 lies in the block of some point that writes back. -/
theorem cover10 (c : Dev nD) (i : ((cfg0.win 10).arr.view.loc (c.tc : Thread nD τ)).2.ty.Idx) :
    ∃ t : Fin cfg0.N, (cfg0.win 10).flush t = true ∧ i ∈ ((cfg0.win 10).blk t).view.set := by
  have hi0 : ((i : S4096x2048.Idx) 0).val < 4096 := (i 0).isLt
  have hi1 : ((i : S4096x2048.Idx) 1).val < 2048 := (i 1).isLt
  have hN : 24 * (((i : S4096x2048.Idx) 0).val / 512) + 3 * (((i : S4096x2048.Idx) 1).val / 256) + 2 < cfg0.N := by
    show _ < 192
    omega
  refine ⟨⟨_, hN⟩, (flush0_10 _).mpr (by show (24 * (((i : S4096x2048.Idx) 0).val / 512) + 3 * (((i : S4096x2048.Idx) 1).val / 256) + 2) % 3 = 2; omega), ?_⟩
  obtain ⟨e0, e1⟩ := idx_facts10 ⟨_, hN⟩
  rw [mem_blk10]
  intro a
  match a with
  | ⟨0, _⟩ =>
    show win0_10.index ⟨_, hN⟩ (0 : Fin 2) * 512 ≤ ((i : S4096x2048.Idx) 0).val ∧ ((i : S4096x2048.Idx) 0).val < win0_10.index ⟨_, hN⟩ (0 : Fin 2) * 512 + 512
    rw [e0]
    show (24 * (((i : S4096x2048.Idx) 0).val / 512) + 3 * (((i : S4096x2048.Idx) 1).val / 256) + 2) / 24 * 512 ≤ _ ∧ _ < (24 * (((i : S4096x2048.Idx) 0).val / 512) + 3 * (((i : S4096x2048.Idx) 1).val / 256) + 2) / 24 * 512 + 512
    omega
  | ⟨1, _⟩ =>
    show win0_10.index ⟨_, hN⟩ (1 : Fin 2) * 256 ≤ ((i : S4096x2048.Idx) 1).val ∧ ((i : S4096x2048.Idx) 1).val < win0_10.index ⟨_, hN⟩ (1 : Fin 2) * 256 + 256
    rw [e1]
    show (24 * (((i : S4096x2048.Idx) 0).val / 512) + 3 * (((i : S4096x2048.Idx) 1).val / 256) + 2) / 3 % 8 * 256 ≤ _ ∧ _ < (24 * (((i : S4096x2048.Idx) 0).val / 512) + 3 * (((i : S4096x2048.Idx) 1).val / 256) + 2) / 3 % 8 * 256 + 256
    omega

theorem cover11 (c : Dev nD) (i : ((cfg0.win 11).arr.view.loc (c.tc : Thread nD τ)).2.ty.Idx) :
    ∃ t : Fin cfg0.N, (cfg0.win 11).flush t = true ∧ i ∈ ((cfg0.win 11).blk t).view.set := by
  have hi0 : ((i : S4096x2048.Idx) 0).val < 4096 := (i 0).isLt
  have hi1 : ((i : S4096x2048.Idx) 1).val < 2048 := (i 1).isLt
  have hN : 24 * (((i : S4096x2048.Idx) 0).val / 512) + 3 * (((i : S4096x2048.Idx) 1).val / 256) + 2 < cfg0.N := by
    show _ < 192
    omega
  refine ⟨⟨_, hN⟩, (flush0_11 _).mpr (by show (24 * (((i : S4096x2048.Idx) 0).val / 512) + 3 * (((i : S4096x2048.Idx) 1).val / 256) + 2) % 3 = 2; omega), ?_⟩
  obtain ⟨e0, e1⟩ := idx_facts11 ⟨_, hN⟩
  rw [mem_blk11]
  intro a
  match a with
  | ⟨0, _⟩ =>
    show win0_11.index ⟨_, hN⟩ (0 : Fin 2) * 512 ≤ ((i : S4096x2048.Idx) 0).val ∧ ((i : S4096x2048.Idx) 0).val < win0_11.index ⟨_, hN⟩ (0 : Fin 2) * 512 + 512
    rw [e0]
    show (24 * (((i : S4096x2048.Idx) 0).val / 512) + 3 * (((i : S4096x2048.Idx) 1).val / 256) + 2) / 24 * 512 ≤ _ ∧ _ < (24 * (((i : S4096x2048.Idx) 0).val / 512) + 3 * (((i : S4096x2048.Idx) 1).val / 256) + 2) / 24 * 512 + 512
    omega
  | ⟨1, _⟩ =>
    show win0_11.index ⟨_, hN⟩ (1 : Fin 2) * 256 ≤ ((i : S4096x2048.Idx) 1).val ∧ ((i : S4096x2048.Idx) 1).val < win0_11.index ⟨_, hN⟩ (1 : Fin 2) * 256 + 256
    rw [e1]
    show (24 * (((i : S4096x2048.Idx) 0).val / 512) + 3 * (((i : S4096x2048.Idx) 1).val / 256) + 2) / 3 % 8 * 256 ≤ _ ∧ _ < (24 * (((i : S4096x2048.Idx) 0).val / 512) + 3 * (((i : S4096x2048.Idx) 1).val / 256) + 2) / 3 % 8 * 256 + 256
    omega

end Cert.KernelIdeal.BlockReads

end
-- ==== Proof.KernelFold.lean ====
/- One accumulator over a run of three grid points.

   The grid's points come in runs of three (t / 3 fixed, t % 3 = 0, 1, 2): the three column bands of one row band and
   one band of hidden units. An accumulator that the run's first point sets to zero plus its band's inner products,
   and to which each later point adds its band's, holds after the run's last point, at (p, q), the inner product over
   all 3072 columns of row 512 (t / 24) + p of the joined input with row 256 (t / 3 % 8) + q of the weights. -/
import proofs.«112202_j18210661335500_1_alg».proof.Proof.Payloads
import proofs.«112202_j18210661335500_1_alg».proof.Proof.BlockReads
import proofs.«112202_j18210661335500_1_alg».proof.Proof.BlockMath
import Idealize.ShloMosaic.Lib.Pipeline.Value
import Idealize.ShloMosaic.Lib.ValueIdx

noncomputable section

open scoped BigOperators

namespace Cert.KernelIdeal.KernelFold

open Cert.KernelIdeal Cert.KernelIdeal.Gen Idealize.ShloMosaic Idealize.ShloMosaic.TcCoe Idealize.SL.Sem
open Idealize.ShloMosaic.ValueIdx
open Cert.KernelIdeal.Payloads Cert.KernelIdeal.BlockReads
open Idealize.ShloMosaic.Pipeline (Dat)

variable (m : (ℓ : Loc nD τ sig) → Buf (Elt Ideal) ℓ) (ρ : Dev nD → PrngReg)

section Fold

variable (c : Dev nD)
variable (S : (n : ℕ) → n < cfg0.N → Vec Ideal S512x256 .f32 → Vec Ideal S512x256 .f32)
variable (wblk : Fin cfg0.N → Vec Ideal S256x1024 .f32) (W : S2048x3072.Idx → EReal)

/-- What point n adds to the accumulator at an entry: the inner product of the point's input block row with its
    weight block row (zero past the grid, where nothing is ever read). -/
def addend (n : ℕ) (y : S512x256.Idx) : EReal :=
  if hn : n < cfg0.N then blockDot (blkX m c ⟨n, hn⟩) (wblk ⟨n, hn⟩) (y 0) (y 1) else 0

/-- An accumulator that a run's first point sets to zero plus its addend and every later point adds its addend to
    holds, after the run's last point, the whole inner product. -/
theorem fold_eq
    (hA : ∀ (t : Fin cfg0.N), t.val % 3 = 0 → ∀ (acc : Vec Ideal S512x256 .f32) (p : Fin 512) (q : Fin 256),
      S t.val t.isLt acc (ix2 p q) = 0 + blockDot (blkX m c t) (wblk t) p q)
    (hB : ∀ (t : Fin cfg0.N), ¬t.val % 3 = 0 → ∀ (acc : Vec Ideal S512x256 .f32) (p : Fin 512) (q : Fin 256),
      S t.val t.isLt acc (ix2 p q) = acc (ix2 p q) + blockDot (blkX m c t) (wblk t) p q)
    (hW : ∀ (t : Fin cfg0.N) (q : Fin 256) (k : Fin 1024) (u : Fin 2048) (j : Fin 3072),
      u.val = 256 * (t.val / 3 % 8) + q.val → j.val = 1024 * (t.val % 3) + k.val → wblk t (ix2 q k) = W (ix2 u j))
    (junk : Vec Ideal S512x256 .f32) (t : Fin cfg0.N) (h2 : t.val % 3 = 2) (hb : 3 * (t.val / 3) + t.val % 3 < cfg0.N)
    (p : Fin 512) (q : Fin 256) (r : Fin 4096) (u : Fin 2048)
    (hr : r.val = 512 * (t.val / 24) + p.val) (hu : u.val = 256 * (t.val / 3 % 8) + q.val) :
    Pipeline.accAt (fun n h => S n h junk) S (3 * (t.val / 3)) (t.val % 3) hb (ix2 p q)
      = ∑ k : Fin 3072, joined m c (ix2 r k) * W (ix2 u k) := by
  have hN : cfg0.N = 192 := N_0
  have htl := t.isLt
  refine (Pipeline.accAt_add_apply (fun n h => S n h junk) S (fun _ => 0) (addend m c wblk) (3 * (t.val / 3)) 2
    (fun h i => ?_) (fun n h acc i h1 h2' => ?_) (t.val % 3) (by omega) hb (ix2 p q)).trans ?_
  · obtain ⟨p', q', rfl⟩ : ∃ (p' : Fin 512) (q' : Fin 256), i = ix2 p' q' := ⟨i 0, i 1, eq_ix2 i⟩
    refine (hA ⟨3 * (t.val / 3), h⟩ (by show 3 * (t.val / 3) % 3 = 0; omega) junk p' q').trans ?_
    unfold addend
    rw [dif_pos h]
  · obtain ⟨p', q', rfl⟩ : ∃ (p' : Fin 512) (q' : Fin 256), i = ix2 p' q' := ⟨i 0, i 1, eq_ix2 i⟩
    refine (hB ⟨n, h⟩ (by show ¬n % 3 = 0; omega) acc p' q').trans ?_
    unfold addend
    rw [dif_pos h]
  · rw [h2]
    refine Eq.trans ?_ (Cert.BlockMath.three_bands fun k => joined m c (ix2 r k) * W (ix2 u k))
    refine congrArg ((0 : EReal) + ·) (Finset.sum_congr rfl fun s hs => ?_)
    have hs3 : s < 3 := Finset.mem_range.mp hs
    have hn : 3 * (t.val / 3) + s < cfg0.N := by omega
    unfold addend
    rw [dif_pos hn]
    unfold blockDot Cert.BlockMath.band
    refine Finset.sum_congr rfl fun k _ => ?_
    have hk := k.isLt
    have hj : 1024 * s + k.val < 3072 := by omega
    rw [blkX_apply m c ⟨3 * (t.val / 3) + s, hn⟩ p k r ⟨1024 * s + k.val, hj⟩ (by show r.val = 512 * ((3 * (t.val / 3) + s) / 24) + p.val; omega)
        (by show 1024 * s + k.val = 1024 * ((3 * (t.val / 3) + s) % 3) + k.val; omega),
      hW ⟨3 * (t.val / 3) + s, hn⟩ q k u ⟨1024 * s + k.val, hj⟩ (by show u.val = 256 * ((3 * (t.val / 3) + s) / 3 % 8) + q.val; omega)
        (by show 1024 * s + k.val = 1024 * ((3 * (t.val / 3) + s) % 3) + k.val; omega)]
    unfold Cert.BlockMath.ext
    rw [dif_pos hj]

end Fold

end Cert.KernelIdeal.KernelFold

end
-- ==== Proof.Accumulators.lean ====
/-
   The four accumulators, one per gate. What a point leaves in an accumulator is, at the first point of a run, zero
   plus the inner products of its column band, and at a later point what the point before left plus its band's; so
   after a run's last point the accumulator holds the whole inner product (KernelFold), and with the bias row added it
   is the gate's pre-activation of CellSpec at the row and hidden unit the block entry stands for. -/
import proofs.«112202_j18210661335500_1_alg».proof.Proof.Gen.KernelIdeal.Value
import proofs.«112202_j18210661335500_1_alg».proof.Proof.Pieces
import proofs.«112202_j18210661335500_1_alg».proof.Proof.Payloads
import proofs.«112202_j18210661335500_1_alg».proof.Proof.BlockReads
import proofs.«112202_j18210661335500_1_alg».proof.Proof.KernelFold
import proofs.«112202_j18210661335500_1_alg».proof.Proof.CellSpec
import Idealize.ShloMosaic.Lib.Pipeline.Value
import Idealize.ShloMosaic.Lib.ValueIdx

noncomputable section

open scoped BigOperators

namespace Cert.KernelIdeal.Accumulators

open Cert.KernelIdeal Cert.KernelIdeal.Gen Idealize.ShloMosaic Idealize.ShloMosaic.TcCoe Idealize.SL.Sem
open Idealize.ShloMosaic.ValueIdx
open Cert.KernelIdeal.Pieces Cert.KernelIdeal.Payloads Cert.KernelIdeal.BlockReads Cert.KernelIdeal.KernelFold

variable (m : (ℓ : Loc nD τ sig) → Buf (Elt Ideal) ℓ)

/-! ## The input gate's accumulator -/

theorem sc0_first (c : Dev nD) (t : Fin cfg0.N) (h0 : t.val % 3 = 0) (acc : Vec Ideal S512x256 .f32) (p : Fin 512) (q : Fin 256) :
    Value.scAt0_0 m c t.val t.isLt acc (ix2 p q) = 0 + blockDot (blkX m c t) (blkWi m c t) p q := by
  have h1 : ¬t.val % 3 = 2 := by omega
  unfold Value.scAt0_0
  rw [dif_pos h0, dif_neg h1]
  refine (congrFun (soutA_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h))) (ix2 p q)).trans ?_
  rw [pay11_apply, pay5_apply]

theorem sc0_later (c : Dev nD) (t : Fin cfg0.N) (h0 : ¬t.val % 3 = 0) (acc : Vec Ideal S512x256 .f32) (p : Fin 512) (q : Fin 256) :
    Value.scAt0_0 m c t.val t.isLt acc (ix2 p q) = acc (ix2 p q) + blockDot (blkX m c t) (blkWi m c t) p q := by
  unfold Value.scAt0_0
  rw [dif_neg h0]
  by_cases h1 : t.val % 3 = 2
  · rw [dif_pos h1]
    refine (congrFun (soutC_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h1) acc _ _ _) (ix2 p q)).trans ?_
    rw [pay11_apply]
  · rw [dif_neg h1]
    refine (congrFun (soutB_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) (fun h => h1 ((hcond0_1 t).mp h)) acc _ _ _) (ix2 p q)).trans ?_
    rw [pay11_apply]

/-- After a run's last point the accumulator plus the bias row is the gate's pre-activation of CellSpec. -/
theorem gate0_at (c : Dev nD) (t : Fin cfg0.N) (h2 : t.val % 3 = 2) (p : Fin 512) (q : Fin 256) (r : Fin 4096) (u : Fin 2048)
    (hr : r.val = 512 * (t.val / 24) + p.val) (hu : u.val = 256 * (t.val / 3 % 8) + q.val) :
    (outsAt0 m c t.val t.isLt).2.2.1 (ix2 p q) + blkBi m c t (ix2 (0 : Fin 1) q)
      = Cert.CellSpec.gate (joined m c) (m ((c : Thread nD τ).loc main_arg3)) (m ((c : Thread nD τ).loc main_arg4)) r u := by
  rw [blkBi_apply m c t q u hu]
  unfold Cert.CellSpec.gate
  refine congrArg (· + (m ((c : Thread nD τ).loc main_arg4)) (ix1 u)) ?_
  rw [Value.soutsAt0_0_eq m c t]
  exact fold_eq m c (Value.scAt0_0 m c) (blkWi m c) (m ((c : Thread nD τ).loc main_arg3)) (sc0_first m c) (sc0_later m c) (blkWi_apply m c) _ t h2 _ p q r u hr hu

/-! ## The forget gate's accumulator -/

theorem sc1_first (c : Dev nD) (t : Fin cfg0.N) (h0 : t.val % 3 = 0) (acc : Vec Ideal S512x256 .f32) (p : Fin 512) (q : Fin 256) :
    Value.scAt0_1 m c t.val t.isLt acc (ix2 p q) = 0 + blockDot (blkX m c t) (blkWf m c t) p q := by
  have h1 : ¬t.val % 3 = 2 := by omega
  unfold Value.scAt0_1
  rw [dif_pos h0, dif_neg h1]
  refine (congrFun (soutA_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h))) (ix2 p q)).trans ?_
  rw [pay12_apply, pay6_apply]

theorem sc1_later (c : Dev nD) (t : Fin cfg0.N) (h0 : ¬t.val % 3 = 0) (acc : Vec Ideal S512x256 .f32) (p : Fin 512) (q : Fin 256) :
    Value.scAt0_1 m c t.val t.isLt acc (ix2 p q) = acc (ix2 p q) + blockDot (blkX m c t) (blkWf m c t) p q := by
  unfold Value.scAt0_1
  rw [dif_neg h0]
  by_cases h1 : t.val % 3 = 2
  · rw [dif_pos h1]
    refine (congrFun (soutC_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h1) _ acc _ _) (ix2 p q)).trans ?_
    rw [pay12_apply]
  · rw [dif_neg h1]
    refine (congrFun (soutB_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) (fun h => h1 ((hcond0_1 t).mp h)) _ acc _ _) (ix2 p q)).trans ?_
    rw [pay12_apply]

/-- After a run's last point the accumulator plus the bias row is the gate's pre-activation of CellSpec. -/
theorem gate1_at (c : Dev nD) (t : Fin cfg0.N) (h2 : t.val % 3 = 2) (p : Fin 512) (q : Fin 256) (r : Fin 4096) (u : Fin 2048)
    (hr : r.val = 512 * (t.val / 24) + p.val) (hu : u.val = 256 * (t.val / 3 % 8) + q.val) :
    (outsAt0 m c t.val t.isLt).2.2.2.1 (ix2 p q) + blkBf m c t (ix2 (0 : Fin 1) q)
      = Cert.CellSpec.gate (joined m c) (m ((c : Thread nD τ).loc main_arg5)) (m ((c : Thread nD τ).loc main_arg6)) r u := by
  rw [blkBf_apply m c t q u hu]
  unfold Cert.CellSpec.gate
  refine congrArg (· + (m ((c : Thread nD τ).loc main_arg6)) (ix1 u)) ?_
  rw [Value.soutsAt0_1_eq m c t]
  exact fold_eq m c (Value.scAt0_1 m c) (blkWf m c) (m ((c : Thread nD τ).loc main_arg5)) (sc1_first m c) (sc1_later m c) (blkWf_apply m c) _ t h2 _ p q r u hr hu

/-! ## The candidate gate's accumulator -/

theorem sc2_first (c : Dev nD) (t : Fin cfg0.N) (h0 : t.val % 3 = 0) (acc : Vec Ideal S512x256 .f32) (p : Fin 512) (q : Fin 256) :
    Value.scAt0_2 m c t.val t.isLt acc (ix2 p q) = 0 + blockDot (blkX m c t) (blkWc m c t) p q := by
  have h1 : ¬t.val % 3 = 2 := by omega
  unfold Value.scAt0_2
  rw [dif_pos h0, dif_neg h1]
  refine (congrFun (soutA_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h))) (ix2 p q)).trans ?_
  rw [pay1_apply, pay7_apply]

theorem sc2_later (c : Dev nD) (t : Fin cfg0.N) (h0 : ¬t.val % 3 = 0) (acc : Vec Ideal S512x256 .f32) (p : Fin 512) (q : Fin 256) :
    Value.scAt0_2 m c t.val t.isLt acc (ix2 p q) = acc (ix2 p q) + blockDot (blkX m c t) (blkWc m c t) p q := by
  unfold Value.scAt0_2
  rw [dif_neg h0]
  by_cases h1 : t.val % 3 = 2
  · rw [dif_pos h1]
    refine (congrFun (soutC_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h1) _ _ acc _) (ix2 p q)).trans ?_
    rw [pay1_apply]
  · rw [dif_neg h1]
    refine (congrFun (soutB_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) (fun h => h1 ((hcond0_1 t).mp h)) _ _ acc _) (ix2 p q)).trans ?_
    rw [pay1_apply]

/-- After a run's last point the accumulator plus the bias row is the gate's pre-activation of CellSpec. -/
theorem gate2_at (c : Dev nD) (t : Fin cfg0.N) (h2 : t.val % 3 = 2) (p : Fin 512) (q : Fin 256) (r : Fin 4096) (u : Fin 2048)
    (hr : r.val = 512 * (t.val / 24) + p.val) (hu : u.val = 256 * (t.val / 3 % 8) + q.val) :
    (outsAt0 m c t.val t.isLt).2.2.2.2.1 (ix2 p q) + blkBc m c t (ix2 (0 : Fin 1) q)
      = Cert.CellSpec.gate (joined m c) (m ((c : Thread nD τ).loc main_arg7)) (m ((c : Thread nD τ).loc main_arg8)) r u := by
  rw [blkBc_apply m c t q u hu]
  unfold Cert.CellSpec.gate
  refine congrArg (· + (m ((c : Thread nD τ).loc main_arg8)) (ix1 u)) ?_
  rw [Value.soutsAt0_2_eq m c t]
  exact fold_eq m c (Value.scAt0_2 m c) (blkWc m c) (m ((c : Thread nD τ).loc main_arg7)) (sc2_first m c) (sc2_later m c) (blkWc_apply m c) _ t h2 _ p q r u hr hu

/-! ## The output gate's accumulator -/

theorem sc3_first (c : Dev nD) (t : Fin cfg0.N) (h0 : t.val % 3 = 0) (acc : Vec Ideal S512x256 .f32) (p : Fin 512) (q : Fin 256) :
    Value.scAt0_3 m c t.val t.isLt acc (ix2 p q) = 0 + blockDot (blkX m c t) (blkWo m c t) p q := by
  have h1 : ¬t.val % 3 = 2 := by omega
  unfold Value.scAt0_3
  rw [dif_pos h0, dif_neg h1]
  refine (congrFun (soutA_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h))) (ix2 p q)).trans ?_
  rw [pay2_apply, pay8_apply]

theorem sc3_later (c : Dev nD) (t : Fin cfg0.N) (h0 : ¬t.val % 3 = 0) (acc : Vec Ideal S512x256 .f32) (p : Fin 512) (q : Fin 256) :
    Value.scAt0_3 m c t.val t.isLt acc (ix2 p q) = acc (ix2 p q) + blockDot (blkX m c t) (blkWo m c t) p q := by
  unfold Value.scAt0_3
  rw [dif_neg h0]
  by_cases h1 : t.val % 3 = 2
  · rw [dif_pos h1]
    refine (congrFun (soutC_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h1) _ _ _ acc) (ix2 p q)).trans ?_
    rw [pay2_apply]
  · rw [dif_neg h1]
    refine (congrFun (soutB_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) (fun h => h1 ((hcond0_1 t).mp h)) _ _ _ acc) (ix2 p q)).trans ?_
    rw [pay2_apply]

/-- After a run's last point the accumulator plus the bias row is the gate's pre-activation of CellSpec. -/
theorem gate3_at (c : Dev nD) (t : Fin cfg0.N) (h2 : t.val % 3 = 2) (p : Fin 512) (q : Fin 256) (r : Fin 4096) (u : Fin 2048)
    (hr : r.val = 512 * (t.val / 24) + p.val) (hu : u.val = 256 * (t.val / 3 % 8) + q.val) :
    (outsAt0 m c t.val t.isLt).2.2.2.2.2 (ix2 p q) + blkBo m c t (ix2 (0 : Fin 1) q)
      = Cert.CellSpec.gate (joined m c) (m ((c : Thread nD τ).loc main_arg9)) (m ((c : Thread nD τ).loc main_arg10)) r u := by
  rw [blkBo_apply m c t q u hu]
  unfold Cert.CellSpec.gate
  refine congrArg (· + (m ((c : Thread nD τ).loc main_arg10)) (ix1 u)) ?_
  rw [Value.soutsAt0_3_eq m c t]
  exact fold_eq m c (Value.scAt0_3 m c) (blkWo m c) (m ((c : Thread nD τ).loc main_arg9)) (sc3_first m c) (sc3_later m c) (blkWo_apply m c) _ t h2 _ p q r u hr hu

end Cert.KernelIdeal.Accumulators

end
-- ==== Proof.KernelValue.lean ====
/- The kernel's two result arrays, after the whole grid has run, are the cell step of CellSpec.

   At the last point of each run of three grid points the body adds the bias rows to the four accumulators (which
   then hold the four gates' whole inner products), applies the logistic function and tanh, and writes the block of
   the new hidden state and the block of the new cell state; these blocks, over all runs, tile the two result
   arrays. -/
import proofs.«112202_j18210661335500_1_alg».proof.Proof.Gen.KernelIdeal.Value
import proofs.«112202_j18210661335500_1_alg».proof.Proof.Pieces
import proofs.«112202_j18210661335500_1_alg».proof.Proof.Payloads
import proofs.«112202_j18210661335500_1_alg».proof.Proof.BlockReads
import proofs.«112202_j18210661335500_1_alg».proof.Proof.Accumulators
import proofs.«112202_j18210661335500_1_alg».proof.Proof.CellSpec
import Idealize.ShloMosaic.Lib.Pipeline.Value
import Idealize.ShloMosaic.Lib.ValueIdx

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx
open Cert.KernelIdeal.Pieces Cert.KernelIdeal.Payloads Cert.KernelIdeal.BlockReads Cert.KernelIdeal.Accumulators
open Idealize.ShloMosaic.Pipeline (Dat)

variable (m : (ℓ : Loc nD τ sig) → Buf (Elt Ideal) ℓ) (ρ : Dev nD → PrngReg)

/-! ## The two result blocks of a run's last point -/

/-- The new hidden state and the new cell state, as whole arrays of the arguments. -/
abbrev hiddenArr (c : Dev nD) : S4096x2048.Idx → EReal :=
  Cert.CellSpec.hidden (joined m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg2))
abbrev cellArr (c : Dev nD) : S4096x2048.Idx → EReal :=
  Cert.CellSpec.cell (joined m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg2))

theorem out10_at (c : Dev nD) (t : Fin cfg0.N) (h0 : ¬t.val % 3 = 0) (h2 : t.val % 3 = 2) :
    (outsAt0 m c t.val t.isLt).1 = k0_pay4 (outsAt0 m c t.val t.isLt).2.2.1 (blkBi m c t) (outsAt0 m c t.val t.isLt).2.2.2.1 (blkBf m c t)
        (outsAt0 m c t.val t.isLt).2.2.2.2.1 (blkBc m c t) (outsAt0 m c t.val t.isLt).2.2.2.2.2 (blkBo m c t) (blkC m c t) := by
  rw [outsAt0_C m c t h0 h2]
  dsimp only
  rw [outC_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h2) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    soutC_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h2) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    soutC_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h2) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    soutC_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h2) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    soutC_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h2) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]

theorem out11_at (c : Dev nD) (t : Fin cfg0.N) (h0 : ¬t.val % 3 = 0) (h2 : t.val % 3 = 2) :
    (outsAt0 m c t.val t.isLt).2.1 = k0_pay3 (outsAt0 m c t.val t.isLt).2.2.1 (blkBi m c t) (outsAt0 m c t.val t.isLt).2.2.2.1 (blkBf m c t)
        (outsAt0 m c t.val t.isLt).2.2.2.2.1 (blkBc m c t) (blkC m c t) := by
  rw [outsAt0_C m c t h0 h2]
  dsimp only
  rw [outC_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h2) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    soutC_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h2) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    soutC_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h2) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    soutC_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h2) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]

/-- What a last point writes back to the hidden-state array is its block of the new hidden state. -/
theorem flushed10_eq (c : Dev nD) (t : Fin cfg0.N) (hf : (cfg0.win 10).flush t = true) :
    (dats m 0 c).flushed 10 t = ((cfg0.win 10).blk t).view.read (Elt Ideal) (hiddenArr m c) := by
  have h2 : t.val % 3 = 2 := (flush0_10 t).mp hf
  have h0 : ¬t.val % 3 = 0 := by omega
  have hN : cfg0.N = 192 := N_0
  have htl := t.isLt
  rw [Value.flushed10 m c t]
  funext y
  obtain ⟨p, q, rfl⟩ : ∃ (p : Fin 512) (q : Fin 256), y = ix2 p q := ⟨y 0, y 1, eq_ix2 y⟩
  have hp := p.isLt
  have hq := q.isLt
  have hr4 : 512 * (t.val / 24) + p.val < 4096 := by omega
  have hu2 : 256 * (t.val / 3 % 8) + q.val < 2048 := by omega
  rw [read_out10 (F := Ideal) c t (hiddenArr m c) p q ⟨512 * (t.val / 24) + p.val, hr4⟩ ⟨256 * (t.val / 3 % 8) + q.val, hu2⟩ rfl rfl]
  show (outsAt0 m c t.val t.isLt).1 (ix2 p q) = _
  rw [out10_at m c t h0 h2, pay4_apply,
    gate0_at m c t h2 p q ⟨512 * (t.val / 24) + p.val, hr4⟩ ⟨256 * (t.val / 3 % 8) + q.val, hu2⟩ rfl rfl,
    gate1_at m c t h2 p q ⟨512 * (t.val / 24) + p.val, hr4⟩ ⟨256 * (t.val / 3 % 8) + q.val, hu2⟩ rfl rfl,
    gate2_at m c t h2 p q ⟨512 * (t.val / 24) + p.val, hr4⟩ ⟨256 * (t.val / 3 % 8) + q.val, hu2⟩ rfl rfl,
    gate3_at m c t h2 p q ⟨512 * (t.val / 24) + p.val, hr4⟩ ⟨256 * (t.val / 3 % 8) + q.val, hu2⟩ rfl rfl,
    blkC_apply m c t p q ⟨512 * (t.val / 24) + p.val, hr4⟩ ⟨256 * (t.val / 3 % 8) + q.val, hu2⟩ rfl rfl]
  rfl

/-- What a last point writes back to the cell-state array is its block of the new cell state. -/
theorem flushed11_eq (c : Dev nD) (t : Fin cfg0.N) (hf : (cfg0.win 11).flush t = true) :
    (dats m 0 c).flushed 11 t = ((cfg0.win 11).blk t).view.read (Elt Ideal) (cellArr m c) := by
  have h2 : t.val % 3 = 2 := (flush0_11 t).mp hf
  have h0 : ¬t.val % 3 = 0 := by omega
  have hN : cfg0.N = 192 := N_0
  have htl := t.isLt
  rw [Value.flushed11 m c t]
  funext y
  obtain ⟨p, q, rfl⟩ : ∃ (p : Fin 512) (q : Fin 256), y = ix2 p q := ⟨y 0, y 1, eq_ix2 y⟩
  have hp := p.isLt
  have hq := q.isLt
  have hr4 : 512 * (t.val / 24) + p.val < 4096 := by omega
  have hu2 : 256 * (t.val / 3 % 8) + q.val < 2048 := by omega
  rw [read_out11 (F := Ideal) c t (cellArr m c) p q ⟨512 * (t.val / 24) + p.val, hr4⟩ ⟨256 * (t.val / 3 % 8) + q.val, hu2⟩ rfl rfl]
  show (outsAt0 m c t.val t.isLt).2.1 (ix2 p q) = _
  rw [out11_at m c t h0 h2, pay3_apply,
    gate0_at m c t h2 p q ⟨512 * (t.val / 24) + p.val, hr4⟩ ⟨256 * (t.val / 3 % 8) + q.val, hu2⟩ rfl rfl,
    gate1_at m c t h2 p q ⟨512 * (t.val / 24) + p.val, hr4⟩ ⟨256 * (t.val / 3 % 8) + q.val, hu2⟩ rfl rfl,
    gate2_at m c t h2 p q ⟨512 * (t.val / 24) + p.val, hr4⟩ ⟨256 * (t.val / 3 % 8) + q.val, hu2⟩ rfl rfl,
    blkC_apply m c t p q ⟨512 * (t.val / 24) + p.val, hr4⟩ ⟨256 * (t.val / 3 % 8) + q.val, hu2⟩ rfl rfl]
  rfl

/-! ## The result arrays after the run -/

theorem final10 (c : Dev nD) : (dats m 0 c).arrAt 10 cfg0.N = hiddenArr m c :=
  (dats m 0 c).arrAt_eq_of_cover 10 (hiddenArr m c) (fun t hf => flushed10_eq m c t hf) (cover10 c)

theorem final11 (c : Dev nD) : (dats m 0 c).arrAt 11 cfg0.N = cellArr m c :=
  (dats m 0 c).arrAt_eq_of_cover 11 (cellArr m c) (fun t hf => flushed11_eq m c t hf) (cover11 c)

/-- Every weakly fair execution of the kernel's program ends with the two results at the cell step of the arguments,
    the arguments unchanged. -/
theorem run : θ_run defs (onTc (τ := τ) (main (F := Ideal))) ⟨m, fun _ => 0, ρ⟩ fun r => ∀ c : Dev nD,
      r.2.mem ((c : Thread nD τ).loc main_v5_0) = hiddenArr m c
      ∧ r.2.mem ((c : Thread nD τ).loc main_v5_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final10 m c), (h c).2.1.trans (final11 m c), (h c).2.2⟩)
    (Value.run_blocks m ρ)

end Cert.KernelIdeal.KernelValue

end
-- ==== Proof.RefValue.lean ====
/- The reference's two results, read entry by entry, are the cell step of CellSpec: its one product against the
   stacked weight matrix, sliced into four column bands, is gate by gate the inner product with that gate's own
   weight rows plus that gate's bias, and its spelled-out 1 / (1 + e^(-z)) is the logistic function. -/
import proofs.«112202_j18210661335500_1_alg».proof.Proof.Gen.ReferenceIdeal.Read
import proofs.«112202_j18210661335500_1_alg».proof.Proof.CellSpec
import Idealize.ShloMosaic.Lib.Pipeline.Value
import Idealize.ShloMosaic.Lib.ValueIdx
import Idealize.ShloMosaic.Lib.IdealHost
import Idealize.ShloMosaic.PureOps.Ideal

noncomputable section

open scoped BigOperators

namespace Cert.ReferenceIdeal.RefValue

open Cert.ReferenceIdeal Cert.ReferenceIdeal.Gen Cert.ReferenceIdeal.Read
open Idealize.ShloMosaic Idealize.ShloMosaic.ValueIdx

/-- Rows 0 to 2047 of the stacked weight matrix are the input gate's weight rows. -/
theorem stackW_0 (x3 x5 x7 x9 : (⟨S2048x3072, .f32⟩ : BufTy).Contents (Elt Ideal)) (j : S8192x3072.Idx)
    (q : Fin 2048) (k : Fin 3072) (h0 : (j 0).val = 0 + q.val) (h1 : (j 1).val = k.val) :
    val_main_v1 (F := Ideal) x3 x5 x7 x9 j = x3 (ix2 q k) := by
  unfold val_main_v1
  exact concatenate_apply_piece 0 _ _ j 0 (by show 0 < 4; omega) S2048x3072 x3 rfl rfl 0 rfl (ix2 q k)
    (fun b hb => match b with
      | ⟨0, _⟩ => absurd rfl hb
      | ⟨1, _⟩ => h1.symm) h0.symm

/-- Entries 0 to 2047 of the stacked bias vector are the input gate's bias. -/
theorem stackb_0 (x4 x6 x8 x10 : (⟨S2048, .f32⟩ : BufTy).Contents (Elt Ideal)) (j : S8192.Idx)
    (q : Fin 2048) (h0 : (j 0).val = 0 + q.val) :
    val_main_v2 (F := Ideal) x4 x6 x8 x10 j = x4 (ix1 q) := by
  unfold val_main_v2
  exact concatenate_apply_piece 0 _ _ j 0 (by show 0 < 4; omega) S2048 x4 rfl rfl 0 rfl (ix1 q)
    (fun b hb => match b with
      | ⟨0, _⟩ => absurd rfl hb) h0.symm

/-- Rows 2048 to 4095 of the stacked weight matrix are the forget gate's weight rows. -/
theorem stackW_1 (x3 x5 x7 x9 : (⟨S2048x3072, .f32⟩ : BufTy).Contents (Elt Ideal)) (j : S8192x3072.Idx)
    (q : Fin 2048) (k : Fin 3072) (h0 : (j 0).val = 2048 + q.val) (h1 : (j 1).val = k.val) :
    val_main_v1 (F := Ideal) x3 x5 x7 x9 j = x5 (ix2 q k) := by
  unfold val_main_v1
  exact concatenate_apply_piece 0 _ _ j 1 (by show 1 < 4; omega) S2048x3072 x5 rfl rfl 2048 rfl (ix2 q k)
    (fun b hb => match b with
      | ⟨0, _⟩ => absurd rfl hb
      | ⟨1, _⟩ => h1.symm) h0.symm

/-- Entries 2048 to 4095 of the stacked bias vector are the forget gate's bias. -/
theorem stackb_1 (x4 x6 x8 x10 : (⟨S2048, .f32⟩ : BufTy).Contents (Elt Ideal)) (j : S8192.Idx)
    (q : Fin 2048) (h0 : (j 0).val = 2048 + q.val) :
    val_main_v2 (F := Ideal) x4 x6 x8 x10 j = x6 (ix1 q) := by
  unfold val_main_v2
  exact concatenate_apply_piece 0 _ _ j 1 (by show 1 < 4; omega) S2048 x6 rfl rfl 2048 rfl (ix1 q)
    (fun b hb => match b with
      | ⟨0, _⟩ => absurd rfl hb) h0.symm

/-- Rows 4096 to 6143 of the stacked weight matrix are the candidate gate's weight rows. -/
theorem stackW_2 (x3 x5 x7 x9 : (⟨S2048x3072, .f32⟩ : BufTy).Contents (Elt Ideal)) (j : S8192x3072.Idx)
    (q : Fin 2048) (k : Fin 3072) (h0 : (j 0).val = 4096 + q.val) (h1 : (j 1).val = k.val) :
    val_main_v1 (F := Ideal) x3 x5 x7 x9 j = x7 (ix2 q k) := by
  unfold val_main_v1
  exact concatenate_apply_piece 0 _ _ j 2 (by show 2 < 4; omega) S2048x3072 x7 rfl rfl 4096 rfl (ix2 q k)
    (fun b hb => match b with
      | ⟨0, _⟩ => absurd rfl hb
      | ⟨1, _⟩ => h1.symm) h0.symm

/-- Entries 4096 to 6143 of the stacked bias vector are the candidate gate's bias. -/
theorem stackb_2 (x4 x6 x8 x10 : (⟨S2048, .f32⟩ : BufTy).Contents (Elt Ideal)) (j : S8192.Idx)
    (q : Fin 2048) (h0 : (j 0).val = 4096 + q.val) :
    val_main_v2 (F := Ideal) x4 x6 x8 x10 j = x8 (ix1 q) := by
  unfold val_main_v2
  exact concatenate_apply_piece 0 _ _ j 2 (by show 2 < 4; omega) S2048 x8 rfl rfl 4096 rfl (ix1 q)
    (fun b hb => match b with
      | ⟨0, _⟩ => absurd rfl hb) h0.symm

/-- Rows 6144 to 8191 of the stacked weight matrix are the output gate's weight rows. -/
theorem stackW_3 (x3 x5 x7 x9 : (⟨S2048x3072, .f32⟩ : BufTy).Contents (Elt Ideal)) (j : S8192x3072.Idx)
    (q : Fin 2048) (k : Fin 3072) (h0 : (j 0).val = 6144 + q.val) (h1 : (j 1).val = k.val) :
    val_main_v1 (F := Ideal) x3 x5 x7 x9 j = x9 (ix2 q k) := by
  unfold val_main_v1
  exact concatenate_apply_piece 0 _ _ j 3 (by show 3 < 4; omega) S2048x3072 x9 rfl rfl 6144 rfl (ix2 q k)
    (fun b hb => match b with
      | ⟨0, _⟩ => absurd rfl hb
      | ⟨1, _⟩ => h1.symm) h0.symm

/-- Entries 6144 to 8191 of the stacked bias vector are the output gate's bias. -/
theorem stackb_3 (x4 x6 x8 x10 : (⟨S2048, .f32⟩ : BufTy).Contents (Elt Ideal)) (j : S8192.Idx)
    (q : Fin 2048) (h0 : (j 0).val = 6144 + q.val) :
    val_main_v2 (F := Ideal) x4 x6 x8 x10 j = x10 (ix1 q) := by
  unfold val_main_v2
  exact concatenate_apply_piece 0 _ _ j 3 (by show 3 < 4; omega) S2048 x10 rfl rfl 6144 rfl (ix1 q)
    (fun b hb => match b with
      | ⟨0, _⟩ => absurd rfl hb) h0.symm

/-- The biased product against the stacked weights, read at row `r` and column `off + q`, is the pre-activation of the
    gate whose weight rows and bias sit at offset `off` in the stacks: the inner product of row `r` of the joined input
    with that gate's weight row `q`, plus its bias at `q`. -/
theorem gate_read (x0 : (⟨S4096x1024, .f32⟩ : BufTy).Contents (Elt Ideal)) (x1 : (⟨S4096x2048, .f32⟩ : BufTy).Contents (Elt Ideal))
    (x3 : (⟨S2048x3072, .f32⟩ : BufTy).Contents (Elt Ideal)) (x4 : (⟨S2048, .f32⟩ : BufTy).Contents (Elt Ideal))
    (x5 : (⟨S2048x3072, .f32⟩ : BufTy).Contents (Elt Ideal)) (x6 : (⟨S2048, .f32⟩ : BufTy).Contents (Elt Ideal))
    (x7 : (⟨S2048x3072, .f32⟩ : BufTy).Contents (Elt Ideal)) (x8 : (⟨S2048, .f32⟩ : BufTy).Contents (Elt Ideal))
    (x9 : (⟨S2048x3072, .f32⟩ : BufTy).Contents (Elt Ideal)) (x10 : (⟨S2048, .f32⟩ : BufTy).Contents (Elt Ideal))
    (W : (⟨2, ![2048, 3072]⟩ : Shape).Idx → EReal) (b : (⟨1, ![2048]⟩ : Shape).Idx → EReal) (off : Nat)
    (hW : ∀ (j : S8192x3072.Idx) (q : Fin 2048) (k : Fin 3072), (j 0).val = off + q.val → (j 1).val = k.val →
      val_main_v1 (F := Ideal) x3 x5 x7 x9 j = W (ix2 q k))
    (hb : ∀ (j : S8192.Idx) (q : Fin 2048), (j 0).val = off + q.val →
      val_main_v2 (F := Ideal) x4 x6 x8 x10 j = b (ix1 q))
    (j : S4096x8192.Idx) (r : Fin 4096) (q : Fin 2048) (h0 : (j 0).val = r.val) (h1 : (j 1).val = off + q.val) :
    val_main_v7 (F := Ideal) x0 x1 x3 x4 x5 x6 x7 x8 x9 x10 j = Cert.CellSpec.gate (val_main_v0 (F := Ideal) x0 x1) W b r q := by
  rw [val_main_v7_apply, val_main_v4_apply, val_main_v6_apply, val_main_v5_apply,
    hb (idx_main_v5 (idx_main_v6 j)) q h1, Ideal.addf_def]
  unfold Cert.CellSpec.gate
  refine congrArg (· + b (ix1 q)) (Finset.sum_congr rfl fun k _ => ?_)
  rw [val_main_v3_apply, hW (idx_main_v3 (ridx_main_v4 j k)) q k h1 rfl]
  have e : lidx_main_v4 j k = ix2 r k := funext fun a => Fin.ext (by
    match a with
    | ⟨0, _⟩ => exact h0
    | ⟨1, _⟩ => rfl)
  rw [e]

/-- The column band at offset 0 is the input gate's pre-activation. -/
theorem gate_v8 (x0 : (⟨S4096x1024, .f32⟩ : BufTy).Contents (Elt Ideal)) (x1 : (⟨S4096x2048, .f32⟩ : BufTy).Contents (Elt Ideal))
    (x3 : (⟨S2048x3072, .f32⟩ : BufTy).Contents (Elt Ideal)) (x4 : (⟨S2048, .f32⟩ : BufTy).Contents (Elt Ideal))
    (x5 : (⟨S2048x3072, .f32⟩ : BufTy).Contents (Elt Ideal)) (x6 : (⟨S2048, .f32⟩ : BufTy).Contents (Elt Ideal))
    (x7 : (⟨S2048x3072, .f32⟩ : BufTy).Contents (Elt Ideal)) (x8 : (⟨S2048, .f32⟩ : BufTy).Contents (Elt Ideal))
    (x9 : (⟨S2048x3072, .f32⟩ : BufTy).Contents (Elt Ideal)) (x10 : (⟨S2048, .f32⟩ : BufTy).Contents (Elt Ideal)) (r : Fin 4096) (q : Fin 2048) :
    val_main_v8 (F := Ideal) x0 x1 x3 x4 x5 x6 x7 x8 x9 x10 (ix2 r q) = Cert.CellSpec.gate (val_main_v0 (F := Ideal) x0 x1) x3 x4 r q := by
  rw [val_main_v8_apply]
  exact gate_read x0 x1 x3 x4 x5 x6 x7 x8 x9 x10 x3 x4 0 (stackW_0 x3 x5 x7 x9) (stackb_0 x4 x6 x8 x10)
    (idx_main_v8 (ix2 r q)) r q rfl (Nat.zero_add _).symm

/-- The column band at offset 2048 is the forget gate's pre-activation. -/
theorem gate_v9 (x0 : (⟨S4096x1024, .f32⟩ : BufTy).Contents (Elt Ideal)) (x1 : (⟨S4096x2048, .f32⟩ : BufTy).Contents (Elt Ideal))
    (x3 : (⟨S2048x3072, .f32⟩ : BufTy).Contents (Elt Ideal)) (x4 : (⟨S2048, .f32⟩ : BufTy).Contents (Elt Ideal))
    (x5 : (⟨S2048x3072, .f32⟩ : BufTy).Contents (Elt Ideal)) (x6 : (⟨S2048, .f32⟩ : BufTy).Contents (Elt Ideal))
    (x7 : (⟨S2048x3072, .f32⟩ : BufTy).Contents (Elt Ideal)) (x8 : (⟨S2048, .f32⟩ : BufTy).Contents (Elt Ideal))
    (x9 : (⟨S2048x3072, .f32⟩ : BufTy).Contents (Elt Ideal)) (x10 : (⟨S2048, .f32⟩ : BufTy).Contents (Elt Ideal)) (r : Fin 4096) (q : Fin 2048) :
    val_main_v9 (F := Ideal) x0 x1 x3 x4 x5 x6 x7 x8 x9 x10 (ix2 r q) = Cert.CellSpec.gate (val_main_v0 (F := Ideal) x0 x1) x5 x6 r q := by
  rw [val_main_v9_apply]
  exact gate_read x0 x1 x3 x4 x5 x6 x7 x8 x9 x10 x5 x6 2048 (stackW_1 x3 x5 x7 x9) (stackb_1 x4 x6 x8 x10)
    (idx_main_v9 (ix2 r q)) r q rfl rfl

/-- The column band at offset 4096 is the candidate gate's pre-activation. -/
theorem gate_v10 (x0 : (⟨S4096x1024, .f32⟩ : BufTy).Contents (Elt Ideal)) (x1 : (⟨S4096x2048, .f32⟩ : BufTy).Contents (Elt Ideal))
    (x3 : (⟨S2048x3072, .f32⟩ : BufTy).Contents (Elt Ideal)) (x4 : (⟨S2048, .f32⟩ : BufTy).Contents (Elt Ideal))
    (x5 : (⟨S2048x3072, .f32⟩ : BufTy).Contents (Elt Ideal)) (x6 : (⟨S2048, .f32⟩ : BufTy).Contents (Elt Ideal))
    (x7 : (⟨S2048x3072, .f32⟩ : BufTy).Contents (Elt Ideal)) (x8 : (⟨S2048, .f32⟩ : BufTy).Contents (Elt Ideal))
    (x9 : (⟨S2048x3072, .f32⟩ : BufTy).Contents (Elt Ideal)) (x10 : (⟨S2048, .f32⟩ : BufTy).Contents (Elt Ideal)) (r : Fin 4096) (q : Fin 2048) :
    val_main_v10 (F := Ideal) x0 x1 x3 x4 x5 x6 x7 x8 x9 x10 (ix2 r q) = Cert.CellSpec.gate (val_main_v0 (F := Ideal) x0 x1) x7 x8 r q := by
  rw [val_main_v10_apply]
  exact gate_read x0 x1 x3 x4 x5 x6 x7 x8 x9 x10 x7 x8 4096 (stackW_2 x3 x5 x7 x9) (stackb_2 x4 x6 x8 x10)
    (idx_main_v10 (ix2 r q)) r q rfl rfl

/-- The column band at offset 6144 is the output gate's pre-activation. -/
theorem gate_v11 (x0 : (⟨S4096x1024, .f32⟩ : BufTy).Contents (Elt Ideal)) (x1 : (⟨S4096x2048, .f32⟩ : BufTy).Contents (Elt Ideal))
    (x3 : (⟨S2048x3072, .f32⟩ : BufTy).Contents (Elt Ideal)) (x4 : (⟨S2048, .f32⟩ : BufTy).Contents (Elt Ideal))
    (x5 : (⟨S2048x3072, .f32⟩ : BufTy).Contents (Elt Ideal)) (x6 : (⟨S2048, .f32⟩ : BufTy).Contents (Elt Ideal))
    (x7 : (⟨S2048x3072, .f32⟩ : BufTy).Contents (Elt Ideal)) (x8 : (⟨S2048, .f32⟩ : BufTy).Contents (Elt Ideal))
    (x9 : (⟨S2048x3072, .f32⟩ : BufTy).Contents (Elt Ideal)) (x10 : (⟨S2048, .f32⟩ : BufTy).Contents (Elt Ideal)) (r : Fin 4096) (q : Fin 2048) :
    val_main_v11 (F := Ideal) x0 x1 x3 x4 x5 x6 x7 x8 x9 x10 (ix2 r q) = Cert.CellSpec.gate (val_main_v0 (F := Ideal) x0 x1) x9 x10 r q := by
  rw [val_main_v11_apply]
  exact gate_read x0 x1 x3 x4 x5 x6 x7 x8 x9 x10 x9 x10 6144 (stackW_3 x3 x5 x7 x9) (stackb_3 x4 x6 x8 x10)
    (idx_main_v11 (ix2 r q)) r q rfl rfl

/-- The quotient 1 / (1 + e^(-z)), with both ones given by the bit pattern of the float one, is the logistic function. -/
theorem logistic_spelled (z : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = Ideal.logistic z
  rw [Ideal.ofBits_one_f32]
  rfl

/-- The input gate's activation is the logistic function of its pre-activation. -/
theorem sig_v17 (x0 : (⟨S4096x1024, .f32⟩ : BufTy).Contents (Elt Ideal)) (x1 : (⟨S4096x2048, .f32⟩ : BufTy).Contents (Elt Ideal))
    (x3 : (⟨S2048x3072, .f32⟩ : BufTy).Contents (Elt Ideal)) (x4 : (⟨S2048, .f32⟩ : BufTy).Contents (Elt Ideal))
    (x5 : (⟨S2048x3072, .f32⟩ : BufTy).Contents (Elt Ideal)) (x6 : (⟨S2048, .f32⟩ : BufTy).Contents (Elt Ideal))
    (x7 : (⟨S2048x3072, .f32⟩ : BufTy).Contents (Elt Ideal)) (x8 : (⟨S2048, .f32⟩ : BufTy).Contents (Elt Ideal))
    (x9 : (⟨S2048x3072, .f32⟩ : BufTy).Contents (Elt Ideal)) (x10 : (⟨S2048, .f32⟩ : BufTy).Contents (Elt Ideal)) (i : S4096x2048.Idx) :
    val_main_v17 (F := Ideal) x0 x1 x3 x4 x5 x6 x7 x8 x9 x10 i = Ideal.logistic (val_main_v8 (F := Ideal) x0 x1 x3 x4 x5 x6 x7 x8 x9 x10 i) := by
  rw [val_main_v17_apply, val_main_v16_apply, val_main_cst_0_apply, val_main_v15_apply, val_main_v14_apply,
    val_main_cst_apply, val_main_v13_apply, val_main_v12_apply]
  exact logistic_spelled _

/-- The forget gate's activation is the logistic function of its pre-activation. -/
theorem sig_v23 (x0 : (⟨S4096x1024, .f32⟩ : BufTy).Contents (Elt Ideal)) (x1 : (⟨S4096x2048, .f32⟩ : BufTy).Contents (Elt Ideal))
    (x3 : (⟨S2048x3072, .f32⟩ : BufTy).Contents (Elt Ideal)) (x4 : (⟨S2048, .f32⟩ : BufTy).Contents (Elt Ideal))
    (x5 : (⟨S2048x3072, .f32⟩ : BufTy).Contents (Elt Ideal)) (x6 : (⟨S2048, .f32⟩ : BufTy).Contents (Elt Ideal))
    (x7 : (⟨S2048x3072, .f32⟩ : BufTy).Contents (Elt Ideal)) (x8 : (⟨S2048, .f32⟩ : BufTy).Contents (Elt Ideal))
    (x9 : (⟨S2048x3072, .f32⟩ : BufTy).Contents (Elt Ideal)) (x10 : (⟨S2048, .f32⟩ : BufTy).Contents (Elt Ideal)) (i : S4096x2048.Idx) :
    val_main_v23 (F := Ideal) x0 x1 x3 x4 x5 x6 x7 x8 x9 x10 i = Ideal.logistic (val_main_v9 (F := Ideal) x0 x1 x3 x4 x5 x6 x7 x8 x9 x10 i) := by
  rw [val_main_v23_apply, val_main_v22_apply, val_main_cst_2_apply, val_main_v21_apply, val_main_v20_apply,
    val_main_cst_1_apply, val_main_v19_apply, val_main_v18_apply]
  exact logistic_spelled _

/-- The output gate's activation is the logistic function of its pre-activation. -/
theorem sig_v30 (x0 : (⟨S4096x1024, .f32⟩ : BufTy).Contents (Elt Ideal)) (x1 : (⟨S4096x2048, .f32⟩ : BufTy).Contents (Elt Ideal))
    (x3 : (⟨S2048x3072, .f32⟩ : BufTy).Contents (Elt Ideal)) (x4 : (⟨S2048, .f32⟩ : BufTy).Contents (Elt Ideal))
    (x5 : (⟨S2048x3072, .f32⟩ : BufTy).Contents (Elt Ideal)) (x6 : (⟨S2048, .f32⟩ : BufTy).Contents (Elt Ideal))
    (x7 : (⟨S2048x3072, .f32⟩ : BufTy).Contents (Elt Ideal)) (x8 : (⟨S2048, .f32⟩ : BufTy).Contents (Elt Ideal))
    (x9 : (⟨S2048x3072, .f32⟩ : BufTy).Contents (Elt Ideal)) (x10 : (⟨S2048, .f32⟩ : BufTy).Contents (Elt Ideal)) (i : S4096x2048.Idx) :
    val_main_v30 (F := Ideal) x0 x1 x3 x4 x5 x6 x7 x8 x9 x10 i = Ideal.logistic (val_main_v11 (F := Ideal) x0 x1 x3 x4 x5 x6 x7 x8 x9 x10 i) := by
  rw [val_main_v30_apply, val_main_v29_apply, val_main_cst_4_apply, val_main_v28_apply, val_main_v27_apply,
    val_main_cst_3_apply, val_main_v26_apply, val_main_v25_apply]
  exact logistic_spelled _

/-- The reference's new cell state at row `r`, unit `q`. -/
theorem cell_at (x0 : (⟨S4096x1024, .f32⟩ : BufTy).Contents (Elt Ideal)) (x1 x2 : (⟨S4096x2048, .f32⟩ : BufTy).Contents (Elt Ideal))
    (x3 : (⟨S2048x3072, .f32⟩ : BufTy).Contents (Elt Ideal)) (x4 : (⟨S2048, .f32⟩ : BufTy).Contents (Elt Ideal))
    (x5 : (⟨S2048x3072, .f32⟩ : BufTy).Contents (Elt Ideal)) (x6 : (⟨S2048, .f32⟩ : BufTy).Contents (Elt Ideal))
    (x7 : (⟨S2048x3072, .f32⟩ : BufTy).Contents (Elt Ideal)) (x8 : (⟨S2048, .f32⟩ : BufTy).Contents (Elt Ideal))
    (x9 : (⟨S2048x3072, .f32⟩ : BufTy).Contents (Elt Ideal)) (x10 : (⟨S2048, .f32⟩ : BufTy).Contents (Elt Ideal)) (r : Fin 4096) (q : Fin 2048) :
    val_main_v33 (F := Ideal) x0 x1 x2 x3 x4 x5 x6 x7 x8 x9 x10 (ix2 r q)
      = Cert.CellSpec.cellOf (Cert.CellSpec.gate (val_main_v0 (F := Ideal) x0 x1) x5 x6 r q)
          (Cert.CellSpec.gate (val_main_v0 (F := Ideal) x0 x1) x3 x4 r q)
          (Cert.CellSpec.gate (val_main_v0 (F := Ideal) x0 x1) x7 x8 r q) (x2 (ix2 r q)) := by
  rw [val_main_v33_apply, val_main_v31_apply, val_main_v32_apply, sig_v23, sig_v17, val_main_v24_apply,
    gate_v9, gate_v8, gate_v10]
  rfl

/-- The reference's new cell state is CellSpec's, over the joined input `val_main_v0 x0 x1`. -/
theorem ref_cell (x0 : (⟨S4096x1024, .f32⟩ : BufTy).Contents (Elt Ideal)) (x1 x2 : (⟨S4096x2048, .f32⟩ : BufTy).Contents (Elt Ideal))
    (x3 : (⟨S2048x3072, .f32⟩ : BufTy).Contents (Elt Ideal)) (x4 : (⟨S2048, .f32⟩ : BufTy).Contents (Elt Ideal))
    (x5 : (⟨S2048x3072, .f32⟩ : BufTy).Contents (Elt Ideal)) (x6 : (⟨S2048, .f32⟩ : BufTy).Contents (Elt Ideal))
    (x7 : (⟨S2048x3072, .f32⟩ : BufTy).Contents (Elt Ideal)) (x8 : (⟨S2048, .f32⟩ : BufTy).Contents (Elt Ideal))
    (x9 : (⟨S2048x3072, .f32⟩ : BufTy).Contents (Elt Ideal)) (x10 : (⟨S2048, .f32⟩ : BufTy).Contents (Elt Ideal)) :
    val_main_v33 (F := Ideal) x0 x1 x2 x3 x4 x5 x6 x7 x8 x9 x10
      = Cert.CellSpec.cell (val_main_v0 (F := Ideal) x0 x1) x3 x4 x5 x6 x7 x8 x2 := by
  funext i
  obtain ⟨r, q, rfl⟩ : ∃ r q, i = ix2 r q := ⟨i 0, i 1, eq_ix2 i⟩
  exact cell_at x0 x1 x2 x3 x4 x5 x6 x7 x8 x9 x10 r q

/-- The reference's new hidden state is CellSpec's. -/
theorem ref_hidden (x0 : (⟨S4096x1024, .f32⟩ : BufTy).Contents (Elt Ideal)) (x1 x2 : (⟨S4096x2048, .f32⟩ : BufTy).Contents (Elt Ideal))
    (x3 : (⟨S2048x3072, .f32⟩ : BufTy).Contents (Elt Ideal)) (x4 : (⟨S2048, .f32⟩ : BufTy).Contents (Elt Ideal))
    (x5 : (⟨S2048x3072, .f32⟩ : BufTy).Contents (Elt Ideal)) (x6 : (⟨S2048, .f32⟩ : BufTy).Contents (Elt Ideal))
    (x7 : (⟨S2048x3072, .f32⟩ : BufTy).Contents (Elt Ideal)) (x8 : (⟨S2048, .f32⟩ : BufTy).Contents (Elt Ideal))
    (x9 : (⟨S2048x3072, .f32⟩ : BufTy).Contents (Elt Ideal)) (x10 : (⟨S2048, .f32⟩ : BufTy).Contents (Elt Ideal)) :
    val_main_v35 (F := Ideal) x0 x1 x2 x3 x4 x5 x6 x7 x8 x9 x10
      = Cert.CellSpec.hidden (val_main_v0 (F := Ideal) x0 x1) x3 x4 x5 x6 x7 x8 x9 x10 x2 := by
  funext i
  obtain ⟨r, q, rfl⟩ : ∃ r q, i = ix2 r q := ⟨i 0, i 1, eq_ix2 i⟩
  rw [val_main_v35_apply, sig_v30, val_main_v34_apply, gate_v11, ref_cell]
  rfl

end Cert.ReferenceIdeal.RefValue

end
-- ==== Proof.lean ====
/- One step of a long short-term memory cell: a Pallas kernel against its jnp reference, over the extended reals.

   Both programs compute, from the joined input X = [x | h], four weight matrices and bias vectors and the previous
   cell state c, the new cell state  sigma(f) * c + sigma(i) * tanh(g)  and the new hidden state
   sigma(o) * tanh(new cell state),  where each gate's pre-activation at row r and hidden unit q is the inner product
   of row r of X with row q of the gate's weights plus the gate's bias at q (CellSpec).

   The kernel computes each gate's inner product in three bands of 1024 columns, accumulated over three consecutive
   grid points, in a narrower float format that is the identity here; the reference stacks the four weight matrices,
   does one product over all 3072 columns and slices the four gates, and spells the logistic function as
   1 / (1 + e^(-z)). Sums over the extended reals are commutative and associative, so the banded sum is the whole sum
   (no finiteness is needed: the precondition is never opened); the spelled-out logistic function is the logistic
   function by definition. The kernel's idealization rewrote nothing, so the preservation claim is trivial. The frames
   of the two kernel programs are the generated ones; the reference's frame is its generated run with the results
   dropped. -/
import proofs.«112202_j18210661335500_1_alg».proof.Defs
import proofs.«112202_j18210661335500_1_alg».proof.Proof.Gen.Kernel
import proofs.«112202_j18210661335500_1_alg».proof.Proof.Gen.Kernel.Skeleton
import proofs.«112202_j18210661335500_1_alg».proof.Proof.Gen.Kernel.Launch
import proofs.«112202_j18210661335500_1_alg».proof.Proof.Gen.Kernel.Points
import proofs.«112202_j18210661335500_1_alg».proof.Proof.Gen.Kernel.Frame
import proofs.«112202_j18210661335500_1_alg».proof.Proof.Gen.KernelIdeal
import proofs.«112202_j18210661335500_1_alg».proof.Proof.Gen.KernelIdeal.Skeleton
import proofs.«112202_j18210661335500_1_alg».proof.Proof.Gen.KernelIdeal.Launch
import proofs.«112202_j18210661335500_1_alg».proof.Proof.Gen.KernelIdeal.Points
import proofs.«112202_j18210661335500_1_alg».proof.Proof.Gen.KernelIdeal.Frame
import proofs.«112202_j18210661335500_1_alg».proof.Proof.Gen.ReferenceIdeal
import proofs.«112202_j18210661335500_1_alg».proof.Proof.Gen.Pre_finite_inputs
import proofs.«112202_j18210661335500_1_alg».proof.Proof.Gen.KernelIdeal.Value
import proofs.«112202_j18210661335500_1_alg».proof.Proof.Gen.ReferenceIdeal.Run
import proofs.«112202_j18210661335500_1_alg».proof.Proof.Gen.ReferenceIdeal.Read
import Idealize.ShloMosaic.Adequacy
import Idealize.ShloMosaic.Init
import proofs.«112202_j18210661335500_1_alg».proof.Proof.KernelValue
import proofs.«112202_j18210661335500_1_alg».proof.Proof.RefValue

noncomputable section

namespace Cert.Proof

open Idealize.ShloMosaic Idealize.SL.Sem

/-- From memories agreeing on the arguments both idealized programs end with the new hidden state and the new cell
    state of CellSpec, as functions of the kernel side's arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨Cert.KernelIdeal.KernelValue.hiddenArr m, Cert.KernelIdeal.KernelValue.cellArr m,
    Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v35_eq, Cert.ReferenceIdeal.RefValue.ref_hidden, a0, a1, a2, a3, a4, a5, a6, a7, a8, a9, a10]
    unfold Cert.KernelIdeal.KernelValue.hiddenArr
    rw [Cert.KernelIdeal.BlockReads.joined_eq]
    rfl
  · obtain ⟨a0, a1, a2, a3, a4, a5, a6, a7, a8, a9, a10⟩ := hagree c
    rw [Cert.ReferenceIdeal.Read.val_main_v33_eq, Cert.ReferenceIdeal.RefValue.ref_cell, a0, a1, a2, a3, a4, a5, a6, a7, a8]
    unfold Cert.KernelIdeal.KernelValue.cellArr
    rw [Cert.KernelIdeal.BlockReads.joined_eq]
    rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
